-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S255x256 : Shape := ⟨2, ![255, 256]⟩
abbrev S255 : Shape := ⟨1, ![255]⟩
abbrev S256x32 : Shape := ⟨2, ![256, 32]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S255x256 : S_.BroadcastsInDim S255x256 (![] : Fin 0 → Fin S255x256.rank)
  reducesTo_S255x256_S_d0_1 : S255x256.ReducesTo [0, 1] S_
  bcast_S_S255 : S_.BroadcastsInDim S255 (![] : Fin 0 → Fin S255.rank)
  reducesTo_S255_S_d0 : S255.ReducesTo [0] S_
  bcast_S_S256x32 : S_.BroadcastsInDim S256x32 (![] : Fin 0 → Fin S256x32.rank)
  reducesTo_S256x32_S_d0_1 : S256x32.ReducesTo [0, 1] S_

variable [Facts]

def fn_part1 {F : FTy → Type} [FloatOps F] (main_arg4 : FVec F S256x32 .f32) (main_v13 : IVec S_ 1) (main_v16 : IVec S255 1) : IVec S_ 1 :=
  let main_c_5 : IVec S_ 1 := constantI S_ 1 1#1
  let main_v17 : IVec S_ 1 := (fun x v => Host.reduce IntOp.andi x v reducesTo_S255_S_d0 h_S_) main_v16 main_c_5
  let main_v18 : IVec S_ 1 := andi main_v13 main_v17
  let main_v19 : FVec F S256x32 .f32 := Host.absf main_arg4
  let main_cst_6 : FVec F S_ .f32 := constant S_ .f32 0x7F800000#32
  let main_v20 : FVec F S256x32 .f32 := broadcastInDim S256x32 ![] bcast_S_S256x32 main_cst_6
  let main_v21 : IVec S256x32 1 := cmpf .olt main_v19 main_v20
  let main_c_7 : IVec S_ 1 := constantI S_ 1 1#1
  let main_v22 : IVec S_ 1 := (fun x v => Host.reduce IntOp.andi x v reducesTo_S256x32_S_d0_1 h_S_) main_v21 main_c_7
  let main_v23 : IVec S_ 1 := andi main_v18 main_v22
  main_v23

def fn {F : FTy → Type} [FloatOps F] (main_arg0 : FVec F S131072x256 .f32) (main_arg1 : FVec F S255x256 .f32) (main_arg2 : FVec F S255 .f32) (main_arg3 : FVec F S255 .f32) (main_arg4 : FVec F S256x32 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S255x256 .f32 := Host.absf main_arg1
  let main_cst_0 : FVec F S_ .f32 := constant S_ .f32 0x7F800000#32
  let main_v5 : FVec F S255x256 .f32 := broadcastInDim S255x256 ![] bcast_S_S255x256 main_cst_0
  let main_v6 : IVec S255x256 1 := cmpf .olt main_v4 main_v5
  let main_c_1 : IVec S_ 1 := constantI S_ 1 1#1
  let main_v7 : IVec S_ 1 := (fun x v => Host.reduce IntOp.andi x v reducesTo_S255x256_S_d0_1 h_S_) main_v6 main_c_1
  let main_v8 : IVec S_ 1 := andi main_v3 main_v7
  let main_v9 : FVec F S255 .f32 := Host.absf main_arg2
  let main_cst_2 : FVec F S_ .f32 := constant S_ .f32 0x7F800000#32
  let main_v10 : FVec F S255 .f32 := broadcastInDim S255 ![] bcast_S_S255 main_cst_2
  let main_v11 : IVec S255 1 := cmpf .olt main_v9 main_v10
  let main_c_3 : IVec S_ 1 := constantI S_ 1 1#1
  let main_v12 : IVec S_ 1 := (fun x v => Host.reduce IntOp.andi x v reducesTo_S255_S_d0 h_S_) main_v11 main_c_3
  let main_v13 : IVec S_ 1 := andi main_v8 main_v12
  let main_v14 : FVec F S255 .f32 := Host.absf main_arg3
  let main_cst_4 : FVec F S_ .f32 := constant S_ .f32 0x7F800000#32
  let main_v15 : FVec F S255 .f32 := broadcastInDim S255 ![] bcast_S_S255 main_cst_4
  let main_v16 : IVec S255 1 := cmpf .olt main_v14 main_v15
  fn_part1 (F := F) main_arg4 main_v13 main_v16
-- ==== Kernel.lean ====
abbrev S131072x256 : Shape := ⟨2, ![131072, 256]⟩
abbrev S255x256 : Shape := ⟨2, ![255, 256]⟩
abbrev S255 : Shape := ⟨1, ![255]⟩
abbrev S256x32 : Shape := ⟨2, ![256, 32]⟩
abbrev S1x255 : Shape := ⟨2, ![1, 255]⟩
abbrev S_ : Shape := ⟨0, ![]⟩
abbrev S256 : Shape := ⟨1, ![256]⟩
abbrev S256x1 : Shape := ⟨2, ![256, 1]⟩
abbrev S131072x32 : Shape := ⟨2, ![131072, 32]⟩
abbrev S4096x256 : Shape := ⟨2, ![4096, 256]⟩
abbrev S4096x32 : Shape := ⟨2, ![4096, 32]⟩
abbrev S4096x255 : Shape := ⟨2, ![4096, 255]⟩
abbrev S4096x1 : Shape := ⟨2, ![4096, 1]⟩
abbrev S4096x1x1 : Shape := ⟨3, ![4096, 1, 1]⟩
abbrev S4096x1x2 : Shape := ⟨3, ![4096, 1, 2]⟩
abbrev S4096x2 : Shape := ⟨2, ![4096, 2]⟩
abbrev S4096x2x1 : Shape := ⟨3, ![4096, 2, 1]⟩
abbrev S4096x2x2 : Shape := ⟨3, ![4096, 2, 2]⟩
abbrev S4096x4 : Shape := ⟨2, ![4096, 4]⟩
abbrev S4096x4x1 : Shape := ⟨3, ![4096, 4, 1]⟩
abbrev S4096x4x2 : Shape := ⟨3, ![4096, 4, 2]⟩
abbrev S4096x8 : Shape := ⟨2, ![4096, 8]⟩
abbrev S4096x8x1 : Shape := ⟨3, ![4096, 8, 1]⟩
abbrev S4096x8x2 : Shape := ⟨3, ![4096, 8, 2]⟩
abbrev S4096x16 : Shape := ⟨2, ![4096, 16]⟩
abbrev S4096x16x1 : Shape := ⟨3, ![4096, 16, 1]⟩
abbrev S4096x16x2 : Shape := ⟨3, ![4096, 16, 2]⟩
abbrev S4096x32x1 : Shape := ⟨3, ![4096, 32, 1]⟩
abbrev S4096x32x2 : Shape := ⟨3, ![4096, 32, 2]⟩
abbrev S4096x64 : Shape := ⟨2, ![4096, 64]⟩
abbrev S4096x64x1 : Shape := ⟨3, ![4096, 64, 1]⟩
abbrev S4096x64x2 : Shape := ⟨3, ![4096, 64, 2]⟩
abbrev S4096x128 : Shape := ⟨2, ![4096, 128]⟩
abbrev S4096x128x1 : Shape := ⟨3, ![4096, 128, 1]⟩
abbrev S4096x128x2 : Shape := ⟨3, ![4096, 128, 2]⟩

abbrev nBuf : Space → Nat
  | .hbm => 23
  | .vmem => 10
  | .smem => 0
  | _ => 0

abbrev bufTy : (tb : Table) → Fin (tcTables nBuf tb) → BufTy
  | .hbm, ⟨0, _⟩ => ⟨S131072x256, .f32⟩
  | .hbm, ⟨1, _⟩ => ⟨S255x256, .f32⟩
  | .hbm, ⟨2, _⟩ => ⟨S255, .f32⟩
  | .hbm, ⟨3, _⟩ => ⟨S255, .f32⟩
  | .hbm, ⟨4, _⟩ => ⟨S256x32, .f32⟩
  | .hbm, ⟨5, _⟩ => ⟨S1x255, .f32⟩
  | .hbm, ⟨6, _⟩ => ⟨S1x255, .f32⟩
  | .hbm, ⟨7, _⟩ => ⟨S_, .f32⟩
  | .hbm, ⟨8, _⟩ => ⟨S256, .f32⟩
  | .hbm, ⟨9, _⟩ => ⟨S_, .f32⟩
  | .hbm, ⟨10, _⟩ => ⟨S256, .f32⟩
  | .hbm, ⟨11, _⟩ => ⟨S256, .f32⟩
  | .hbm, ⟨12, _⟩ => ⟨S256x1, .f32⟩
  | .hbm, ⟨13, _⟩ => ⟨S256x32, .f32⟩
  | .hbm, ⟨14, _⟩ => ⟨S256x32, .f32⟩
  | .hbm, ⟨15, _⟩ => ⟨S256x32, .f32⟩
  | .hbm, ⟨16, _⟩ => ⟨S_, .f32⟩
  | .hbm, ⟨17, _⟩ => ⟨S256, .f32⟩
  | .hbm, ⟨18, _⟩ => ⟨S256x1, .f32⟩
  | .hbm, ⟨19, _⟩ => ⟨S256x32, .f32⟩
  | .hbm, ⟨20, _⟩ => ⟨S256x32, .f32⟩
  | .hbm, ⟨21, _⟩ => ⟨S131072x32, .f32⟩
  | .hbm, ⟨22, _⟩ => ⟨S131072x256, .f32⟩
  | .local _ .vmem, ⟨0, _⟩ => ⟨S4096x256, .f32⟩
  | .local _ .vmem, ⟨1, _⟩ => ⟨S4096x256, .f32⟩
  | .local _ .vmem, ⟨2, _⟩ => ⟨S255x256, .f32⟩
  | .local _ .vmem, ⟨3, _⟩ => ⟨S1x255, .f32⟩
  | .local _ .vmem, ⟨4, _⟩ => ⟨S1x255, .f32⟩
  | .local _ .vmem, ⟨5, _⟩ => ⟨S256x32, .f32⟩
  | .local _ .vmem, ⟨6, _⟩ => ⟨S4096x32, .f32⟩
  | .local _ .vmem, ⟨7, _⟩ => ⟨S4096x32, .f32⟩
  | .local _ .vmem, ⟨8, _⟩ => ⟨S4096x256, .f32⟩
  | .local _ .vmem, ⟨9, _⟩ => ⟨S4096x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S255x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x255 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x255 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S255_S1x255 : S255.ShapeCasts S1x255
  reducesTo_S256x32_S256_d1 : S256x32.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x32_0_1 : S256x1.BroadcastsInDim S256x32 (![0, 1] : Fin 2 → Fin S256x32.rank)
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S255x256_S255x256_0_0 : ∀ a, (![0, 0] : Fin 2 → Nat) a + S255x256.size a ≤ S255x256.size a
  h_S255x256 : 0 < S255x256.numel
  inb_S1x255_S1x255_0_0 : ∀ a, (![0, 0] : Fin 2 → Nat) a + S1x255.size a ≤ S1x255.size a
  h_S1x255 : 0 < S1x255.numel
  shapeCasts_S1x255_S1x255 : S1x255.ShapeCasts S1x255
  broadcasts_S1x255_S4096x255 : S1x255.Broadcasts S4096x255
  slices_S4096x255_o0_0_S4096x1 : S4096x255.Slices ![0, 0] S4096x1
  shapeCasts_S4096x1_S4096x1x1 : S4096x1.ShapeCasts S4096x1x1
  concatenates_S4096x1x1_S4096x1x1_S4096x1x2_d2 : Shape.Concatenates [S4096x1x1, S4096x1x1] S4096x1x2 2
  shapeCasts_S4096x1x2_S4096x2 : S4096x1x2.ShapeCasts S4096x2
  slices_S4096x255_o0_1_S4096x2 : S4096x255.Slices ![0, 1] S4096x2
  shapeCasts_S4096x2_S4096x2x1 : S4096x2.ShapeCasts S4096x2x1
  concatenates_S4096x2x1_S4096x2x1_S4096x2x2_d2 : Shape.Concatenates [S4096x2x1, S4096x2x1] S4096x2x2 2
  shapeCasts_S4096x2x2_S4096x4 : S4096x2x2.ShapeCasts S4096x4
  slices_S4096x255_o0_3_S4096x4 : S4096x255.Slices ![0, 3] S4096x4
  shapeCasts_S4096x4_S4096x4x1 : S4096x4.ShapeCasts S4096x4x1
  concatenates_S4096x4x1_S4096x4x1_S4096x4x2_d2 : Shape.Concatenates [S4096x4x1, S4096x4x1] S4096x4x2 2
  shapeCasts_S4096x4x2_S4096x8 : S4096x4x2.ShapeCasts S4096x8
  slices_S4096x255_o0_7_S4096x8 : S4096x255.Slices ![0, 7] S4096x8
  shapeCasts_S4096x8_S4096x8x1 : S4096x8.ShapeCasts S4096x8x1
  concatenates_S4096x8x1_S4096x8x1_S4096x8x2_d2 : Shape.Concatenates [S4096x8x1, S4096x8x1] S4096x8x2 2
  shapeCasts_S4096x8x2_S4096x16 : S4096x8x2.ShapeCasts S4096x16
  slices_S4096x255_o0_15_S4096x16 : S4096x255.Slices ![0, 15] S4096x16
  shapeCasts_S4096x16_S4096x16x1 : S4096x16.ShapeCasts S4096x16x1
  concatenates_S4096x16x1_S4096x16x1_S4096x16x2_d2 : Shape.Concatenates [S4096x16x1, S4096x16x1] S4096x16x2 2
  shapeCasts_S4096x16x2_S4096x32 : S4096x16x2.ShapeCasts S4096x32
  slices_S4096x255_o0_31_S4096x32 : S4096x255.Slices ![0, 31] S4096x32
  shapeCasts_S4096x32_S4096x32x1 : S4096x32.ShapeCasts S4096x32x1
  concatenates_S4096x32x1_S4096x32x1_S4096x32x2_d2 : Shape.Concatenates [S4096x32x1, S4096x32x1] S4096x32x2 2
  shapeCasts_S4096x32x2_S4096x64 : S4096x32x2.ShapeCasts S4096x64
  slices_S4096x255_o0_63_S4096x64 : S4096x255.Slices ![0, 63] S4096x64
  shapeCasts_S4096x64_S4096x64x1 : S4096x64.ShapeCasts S4096x64x1
  concatenates_S4096x64x1_S4096x64x1_S4096x64x2_d2 : Shape.Concatenates [S4096x64x1, S4096x64x1] S4096x64x2 2
  shapeCasts_S4096x64x2_S4096x128 : S4096x64x2.ShapeCasts S4096x128
  slices_S4096x255_o0_127_S4096x128 : S4096x255.Slices ![0, 127] S4096x128
  shapeCasts_S4096x128_S4096x128x1 : S4096x128.ShapeCasts S4096x128x1
  concatenates_S4096x128x1_S4096x128x1_S4096x128x2_d2 : Shape.Concatenates [S4096x128x1, S4096x128x1] S4096x128x2 2
  shapeCasts_S4096x128x2_S4096x256 : S4096x128x2.ShapeCasts S4096x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S4096x32_S4096x32_0_0 : ∀ a, (![0, 0] : Fin 2 → Nat) a + S4096x32.size a ≤ S4096x32.size a
  h_S4096x32 : 0 < S4096x32.numel
  dot_S4096x256_S255x256_S4096x255_1_1_0_0_n_n_wf : DotDims.WF S4096x256 S255x256 S4096x255 [1] [1] [0] [0] [] []
  dot_S4096x256_S256x32_S4096x32_1_0_0_1_n_n_wf : DotDims.WF S4096x256 S256x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S255x256.size a ≤ S255x256.size a
  hwx0_1 : ∀ i : grid0.Coords, EltTy.bits .f32 = 32 ∨ (Rect.block (s := S255x256) S255x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x255.size a ≤ S1x255.size a
  hwx0_2 : ∀ i : grid0.Coords, EltTy.bits .f32 = 32 ∨ (Rect.block (s := S1x255) S1x255.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x255.size a ≤ S1x255.size a
  hwx0_3 : ∀ i : grid0.Coords, EltTy.bits .f32 = 32 ∨ (Rect.block (s := S1x255) S1x255.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x32.size a ≤ S256x32.size a
  hwx0_4 : ∀ i : grid0.Coords, EltTy.bits .f32 = 32 ∨ (Rect.block (s := S256x32) S256x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x32.size a ≤ S131072x32.size a
  hwx0_5 : ∀ i : grid0.Coords, EltTy.bits .f32 = 32 ∨ (Rect.block (s := S131072x32) S4096x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x256.size a ≤ S131072x256.size a
  hwx0_6 : ∀ i : grid0.Coords, EltTy.bits .f32 = 32 ∨ (Rect.block (s := S131072x256) S4096x256.size (cc0_transform_6 i) (hinb0_6 i)).WholeWords (EltTy.packing .f32)

variable [Facts₀]

def dot_S4096x256_S255x256_S4096x255_1_1_0_0_n_n : DotDims S4096x256 S255x256 S4096x255 where
  lhsContracting := [1]
  rhsContracting := [1]
  lhsNonContracting := [0]
  rhsNonContracting := [0]
  lhsBatch := []
  rhsBatch := []
  wf := dot_S4096x256_S255x256_S4096x255_1_1_0_0_n_n_wf
def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S255x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x255.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x255.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S256x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13_0) S4096x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13_1) S4096x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x256 : Shape := ⟨2, ![131072, 256]⟩
abbrev S255x256 : Shape := ⟨2, ![255, 256]⟩
abbrev S255 : Shape := ⟨1, ![255]⟩
abbrev S256x32 : Shape := ⟨2, ![256, 32]⟩
abbrev S1x255 : Shape := ⟨2, ![1, 255]⟩
abbrev S256x255 : Shape := ⟨2, ![256, 255]⟩
abbrev S131072x255 : Shape := ⟨2, ![131072, 255]⟩
abbrev S_ : Shape := ⟨0, ![]⟩
abbrev S131072x1 : Shape := ⟨2, ![131072, 1]⟩
abbrev S131072x1x1 : Shape := ⟨3, ![131072, 1, 1]⟩
abbrev S131072x1x2 : Shape := ⟨3, ![131072, 1, 2]⟩
abbrev S131072x2 : Shape := ⟨2, ![131072, 2]⟩
abbrev S131072x2x1 : Shape := ⟨3, ![131072, 2, 1]⟩
abbrev S131072x2x2 : Shape := ⟨3, ![131072, 2, 2]⟩
abbrev S131072x4 : Shape := ⟨2, ![131072, 4]⟩
abbrev S131072x4x1 : Shape := ⟨3, ![131072, 4, 1]⟩
abbrev S131072x4x2 : Shape := ⟨3, ![131072, 4, 2]⟩
abbrev S131072x8 : Shape := ⟨2, ![131072, 8]⟩
abbrev S131072x8x1 : Shape := ⟨3, ![131072, 8, 1]⟩
abbrev S131072x8x2 : Shape := ⟨3, ![131072, 8, 2]⟩
abbrev S131072x16 : Shape := ⟨2, ![131072, 16]⟩
abbrev S131072x16x1 : Shape := ⟨3, ![131072, 16, 1]⟩
abbrev S131072x16x2 : Shape := ⟨3, ![131072, 16, 2]⟩
abbrev S131072x32 : Shape := ⟨2, ![131072, 32]⟩
abbrev S131072x32x1 : Shape := ⟨3, ![131072, 32, 1]⟩
abbrev S131072x32x2 : Shape := ⟨3, ![131072, 32, 2]⟩
abbrev S131072x64 : Shape := ⟨2, ![131072, 64]⟩
abbrev S131072x64x1 : Shape := ⟨3, ![131072, 64, 1]⟩
abbrev S131072x64x2 : Shape := ⟨3, ![131072, 64, 2]⟩
abbrev S131072x128 : Shape := ⟨2, ![131072, 128]⟩
abbrev S131072x128x1 : Shape := ⟨3, ![131072, 128, 1]⟩
abbrev S131072x128x2 : Shape := ⟨3, ![131072, 128, 2]⟩
abbrev S256 : Shape := ⟨1, ![256]⟩
abbrev S256x1 : Shape := ⟨2, ![256, 1]⟩

abbrev nBuf : Space → Nat
  | .hbm => 118
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S255x256, .f32⟩
  | .hbm, ⟨2, _⟩ => ⟨S255, .f32⟩
  | .hbm, ⟨3, _⟩ => ⟨S255, .f32⟩
  | .hbm, ⟨4, _⟩ => ⟨S256x32, .f32⟩
  | .hbm, ⟨5, _⟩ => ⟨S1x255, .f32⟩
  | .hbm, ⟨6, _⟩ => ⟨S256x255, .f32⟩
  | .hbm, ⟨7, _⟩ => ⟨S131072x255, .f32⟩
  | .hbm, ⟨8, _⟩ => ⟨S1x255, .f32⟩
  | .hbm, ⟨9, _⟩ => ⟨S131072x255, .f32⟩
  | .hbm, ⟨10, _⟩ => ⟨S131072x255, .f32⟩
  | .hbm, ⟨11, _⟩ => ⟨S131072x255, .f32⟩
  | .hbm, ⟨12, _⟩ => ⟨S131072x255, .f32⟩
  | .hbm, ⟨13, _⟩ => ⟨S131072x255, .f32⟩
  | .hbm, ⟨14, _⟩ => ⟨S131072x255, .f32⟩
  | .hbm, ⟨15, _⟩ => ⟨S_, .f32⟩
  | .hbm, ⟨16, _⟩ => ⟨S131072x255, .f32⟩
  | .hbm, ⟨17, _⟩ => ⟨S131072x255, .f32⟩
  | .hbm, ⟨18, _⟩ => ⟨S_, .f32⟩
  | .hbm, ⟨19, _⟩ => ⟨S131072x255, .f32⟩
  | .hbm, ⟨20, _⟩ => ⟨S131072x255, .f32⟩
  | .hbm, ⟨21, _⟩ => ⟨S_, .f32⟩
  | .hbm, ⟨22, _⟩ => ⟨S131072x1, .f32⟩
  | .hbm, ⟨23, _⟩ => ⟨S131072x1, .f32⟩
  | .hbm, ⟨24, _⟩ => ⟨S131072x1, .f32⟩
  | .hbm, ⟨25, _⟩ => ⟨S_, .f32⟩
  | .hbm, ⟨26, _⟩ => ⟨S131072x1, .f32⟩
  | .hbm, ⟨27, _⟩ => ⟨S131072x1, .f32⟩
  | .hbm, ⟨28, _⟩ => ⟨S131072x1, .f32⟩
  | .hbm, ⟨29, _⟩ => ⟨S131072x1x1, .f32⟩
  | .hbm, ⟨30, _⟩ => ⟨S131072x1x1, .f32⟩
  | .hbm, ⟨31, _⟩ => ⟨S131072x1x2, .f32⟩
  | .hbm, ⟨32, _⟩ => ⟨S131072x2, .f32⟩
  | .hbm, ⟨33, _⟩ => ⟨S131072x2, .f32⟩
  | .hbm, ⟨34, _⟩ => ⟨S131072x2, .f32⟩
  | .hbm, ⟨35, _⟩ => ⟨S_, .f32⟩
  | .hbm, ⟨36, _⟩ => ⟨S131072x2, .f32⟩
  | .hbm, ⟨37, _⟩ => ⟨S131072x2, .f32⟩
  | .hbm, ⟨38, _⟩ => ⟨S131072x2, .f32⟩
  | .hbm, ⟨39, _⟩ => ⟨S131072x2x1, .f32⟩
  | .hbm, ⟨40, _⟩ => ⟨S131072x2x1, .f32⟩
  | .hbm, ⟨41, _⟩ => ⟨S131072x2x2, .f32⟩
  | .hbm, ⟨42, _⟩ => ⟨S131072x4, .f32⟩
  | .hbm, ⟨43, _⟩ => ⟨S131072x4, .f32⟩
  | .hbm, ⟨44, _⟩ => ⟨S131072x4, .f32⟩
  | .hbm, ⟨45, _⟩ => ⟨S_, .f32⟩
  | .hbm, ⟨46, _⟩ => ⟨S131072x4, .f32⟩
  | .hbm, ⟨47, _⟩ => ⟨S131072x4, .f32⟩
  | .hbm, ⟨48, _⟩ => ⟨S131072x4, .f32⟩
  | .hbm, ⟨49, _⟩ => ⟨S131072x4x1, .f32⟩
  | .hbm, ⟨50, _⟩ => ⟨S131072x4x1, .f32⟩
  | .hbm, ⟨51, _⟩ => ⟨S131072x4x2, .f32⟩
  | .hbm, ⟨52, _⟩ => ⟨S131072x8, .f32⟩
  | .hbm, ⟨53, _⟩ => ⟨S131072x8, .f32⟩
  | .hbm, ⟨54, _⟩ => ⟨S131072x8, .f32⟩
  | .hbm, ⟨55, _⟩ => ⟨S_, .f32⟩
  | .hbm, ⟨56, _⟩ => ⟨S131072x8, .f32⟩
  | .hbm, ⟨57, _⟩ => ⟨S131072x8, .f32⟩
  | .hbm, ⟨58, _⟩ => ⟨S131072x8, .f32⟩
  | .hbm, ⟨59, _⟩ => ⟨S131072x8x1, .f32⟩
  | .hbm, ⟨60, _⟩ => ⟨S131072x8x1, .f32⟩
  | .hbm, ⟨61, _⟩ => ⟨S131072x8x2, .f32⟩
  | .hbm, ⟨62, _⟩ => ⟨S131072x16, .f32⟩
  | .hbm, ⟨63, _⟩ => ⟨S131072x16, .f32⟩
  | .hbm, ⟨64, _⟩ => ⟨S131072x16, .f32⟩
  | .hbm, ⟨65, _⟩ => ⟨S_, .f32⟩
  | .hbm, ⟨66, _⟩ => ⟨S131072x16, .f32⟩
  | .hbm, ⟨67, _⟩ => ⟨S131072x16, .f32⟩
  | .hbm, ⟨68, _⟩ => ⟨S131072x16, .f32⟩
  | .hbm, ⟨69, _⟩ => ⟨S131072x16x1, .f32⟩
  | .hbm, ⟨70, _⟩ => ⟨S131072x16x1, .f32⟩
  | .hbm, ⟨71, _⟩ => ⟨S131072x16x2, .f32⟩
  | .hbm, ⟨72, _⟩ => ⟨S131072x32, .f32⟩
  | .hbm, ⟨73, _⟩ => ⟨S131072x32, .f32⟩
  | .hbm, ⟨74, _⟩ => ⟨S131072x32, .f32⟩
  | .hbm, ⟨75, _⟩ => ⟨S_, .f32⟩
  | .hbm, ⟨76, _⟩ => ⟨S131072x32, .f32⟩
  | .hbm, ⟨77, _⟩ => ⟨S131072x32, .f32⟩
  | .hbm, ⟨78, _⟩ => ⟨S131072x32, .f32⟩
  | .hbm, ⟨79, _⟩ => ⟨S131072x32x1, .f32⟩
  | .hbm, ⟨80, _⟩ => ⟨S131072x32x1, .f32⟩
  | .hbm, ⟨81, _⟩ => ⟨S131072x32x2, .f32⟩
  | .hbm, ⟨82, _⟩ => ⟨S131072x64, .f32⟩
  | .hbm, ⟨83, _⟩ => ⟨S131072x64, .f32⟩
  | .hbm, ⟨84, _⟩ => ⟨S131072x64, .f32⟩
  | .hbm, ⟨85, _⟩ => ⟨S_, .f32⟩
  | .hbm, ⟨86, _⟩ => ⟨S131072x64, .f32⟩
  | .hbm, ⟨87, _⟩ => ⟨S131072x64, .f32⟩
  | .hbm, ⟨88, _⟩ => ⟨S131072x64, .f32⟩
  | .hbm, ⟨89, _⟩ => ⟨S131072x64x1, .f32⟩
  | .hbm, ⟨90, _⟩ => ⟨S131072x64x1, .f32⟩
  | .hbm, ⟨91, _⟩ => ⟨S131072x64x2, .f32⟩
  | .hbm, ⟨92, _⟩ => ⟨S131072x128, .f32⟩
  | .hbm, ⟨93, _⟩ => ⟨S131072x128, .f32⟩
  | .hbm, ⟨94, _⟩ => ⟨S131072x128, .f32⟩
  | .hbm, ⟨95, _⟩ => ⟨S_, .f32⟩
  | .hbm, ⟨96, _⟩ => ⟨S131072x128, .f32⟩
  | .hbm, ⟨97, _⟩ => ⟨S131072x128, .f32⟩
  | .hbm, ⟨98, _⟩ => ⟨S131072x128, .f32⟩
  | .hbm, ⟨99, _⟩ => ⟨S131072x128x1, .f32⟩
  | .hbm, ⟨100, _⟩ => ⟨S131072x128x1, .f32⟩
  | .hbm, ⟨101, _⟩ => ⟨S131072x128x2, .f32⟩
  | .hbm, ⟨102, _⟩ => ⟨S131072x256, .f32⟩
  | .hbm, ⟨103, _⟩ => ⟨S_, .f32⟩
  | .hbm, ⟨104, _⟩ => ⟨S256, .f32⟩
  | .hbm, ⟨105, _⟩ => ⟨S_, .f32⟩
  | .hbm, ⟨106, _⟩ => ⟨S256, .f32⟩
  | .hbm, ⟨107, _⟩ => ⟨S256, .f32⟩
  | .hbm, ⟨108, _⟩ => ⟨S256x1, .f32⟩
  | .hbm, ⟨109, _⟩ => ⟨S256x32, .f32⟩
  | .hbm, ⟨110, _⟩ => ⟨S256x32, .f32⟩
  | .hbm, ⟨111, _⟩ => ⟨S256x32, .f32⟩
  | .hbm, ⟨112, _⟩ => ⟨S_, .f32⟩
  | .hbm, ⟨113, _⟩ => ⟨S256, .f32⟩
  | .hbm, ⟨114, _⟩ => ⟨S256x1, .f32⟩
  | .hbm, ⟨115, _⟩ => ⟨S256x32, .f32⟩
  | .hbm, ⟨116, _⟩ => ⟨S256x32, .f32⟩
  | .hbm, ⟨117, _⟩ => ⟨S131072x32, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_6 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_7 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_cst_8 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_cst_9 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_cst_10 : Ref sig .tc := ⟨.hbm, 103, rfl⟩
abbrev main_v87 : Ref sig .tc := ⟨.hbm, 104, rfl⟩
abbrev main_cst_11 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_12 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩

abbrev nD : Nat := 1
abbrev τ : Topo := Topo.v7x

variable {F : FTy → Type} [FloatOps F]

class Facts₀ : Prop where
  bcast_S255_S1x255_1 : S255.BroadcastsInDim S1x255 (![1] : Fin 1 → Fin S1x255.rank)
  transposes_S255x256_S256x255_1_0 : S255x256.Transposes [1, 0] S256x255
  bcast_S1x255_S131072x255_0_1 : S1x255.BroadcastsInDim S131072x255 (![0, 1] : Fin 2 → Fin S131072x255.rank)
  bcast_S_S131072x255 : S_.BroadcastsInDim S131072x255 (![] : Fin 0 → Fin S131072x255.rank)
  bcast_S_S131072x1 : S_.BroadcastsInDim S131072x1 (![] : Fin 0 → Fin S131072x1.rank)
  slices_S131072x255_S131072x1_0_0 : S131072x255.Slices ![0, 0] S131072x1
  bcast_S131072x1_S131072x1x1_0_1 : S131072x1.BroadcastsInDim S131072x1x1 (![0, 1] : Fin 2 → Fin S131072x1x1.rank)
  concatenates_S131072x1x1_S131072x1x1_S131072x1x2_d2 : Shape.Concatenates [S131072x1x1, S131072x1x1] S131072x1x2 2
  shapeCasts_S131072x1x2_S131072x2 : S131072x1x2.ShapeCasts S131072x2
  slices_S131072x255_S131072x2_0_1 : S131072x255.Slices ![0, 1] S131072x2
  bcast_S_S131072x2 : S_.BroadcastsInDim S131072x2 (![] : Fin 0 → Fin S131072x2.rank)
  bcast_S131072x2_S131072x2x1_0_1 : S131072x2.BroadcastsInDim S131072x2x1 (![0, 1] : Fin 2 → Fin S131072x2x1.rank)
  concatenates_S131072x2x1_S131072x2x1_S131072x2x2_d2 : Shape.Concatenates [S131072x2x1, S131072x2x1] S131072x2x2 2
  shapeCasts_S131072x2x2_S131072x4 : S131072x2x2.ShapeCasts S131072x4
  slices_S131072x255_S131072x4_0_3 : S131072x255.Slices ![0, 3] S131072x4
  bcast_S_S131072x4 : S_.BroadcastsInDim S131072x4 (![] : Fin 0 → Fin S131072x4.rank)
  bcast_S131072x4_S131072x4x1_0_1 : S131072x4.BroadcastsInDim S131072x4x1 (![0, 1] : Fin 2 → Fin S131072x4x1.rank)
  concatenates_S131072x4x1_S131072x4x1_S131072x4x2_d2 : Shape.Concatenates [S131072x4x1, S131072x4x1] S131072x4x2 2
  shapeCasts_S131072x4x2_S131072x8 : S131072x4x2.ShapeCasts S131072x8
  slices_S131072x255_S131072x8_0_7 : S131072x255.Slices ![0, 7] S131072x8
  bcast_S_S131072x8 : S_.BroadcastsInDim S131072x8 (![] : Fin 0 → Fin S131072x8.rank)
  bcast_S131072x8_S131072x8x1_0_1 : S131072x8.BroadcastsInDim S131072x8x1 (![0, 1] : Fin 2 → Fin S131072x8x1.rank)
  concatenates_S131072x8x1_S131072x8x1_S131072x8x2_d2 : Shape.Concatenates [S131072x8x1, S131072x8x1] S131072x8x2 2
  shapeCasts_S131072x8x2_S131072x16 : S131072x8x2.ShapeCasts S131072x16
  slices_S131072x255_S131072x16_0_15 : S131072x255.Slices ![0, 15] S131072x16
  bcast_S_S131072x16 : S_.BroadcastsInDim S131072x16 (![] : Fin 0 → Fin S131072x16.rank)
  bcast_S131072x16_S131072x16x1_0_1 : S131072x16.BroadcastsInDim S131072x16x1 (![0, 1] : Fin 2 → Fin S131072x16x1.rank)
  concatenates_S131072x16x1_S131072x16x1_S131072x16x2_d2 : Shape.Concatenates [S131072x16x1, S131072x16x1] S131072x16x2 2
  shapeCasts_S131072x16x2_S131072x32 : S131072x16x2.ShapeCasts S131072x32
  slices_S131072x255_S131072x32_0_31 : S131072x255.Slices ![0, 31] S131072x32
  bcast_S_S131072x32 : S_.BroadcastsInDim S131072x32 (![] : Fin 0 → Fin S131072x32.rank)
  bcast_S131072x32_S131072x32x1_0_1 : S131072x32.BroadcastsInDim S131072x32x1 (![0, 1] : Fin 2 → Fin S131072x32x1.rank)
  concatenates_S131072x32x1_S131072x32x1_S131072x32x2_d2 : Shape.Concatenates [S131072x32x1, S131072x32x1] S131072x32x2 2
  shapeCasts_S131072x32x2_S131072x64 : S131072x32x2.ShapeCasts S131072x64
  slices_S131072x255_S131072x64_0_63 : S131072x255.Slices ![0, 63] S131072x64
  bcast_S_S131072x64 : S_.BroadcastsInDim S131072x64 (![] : Fin 0 → Fin S131072x64.rank)
  bcast_S131072x64_S131072x64x1_0_1 : S131072x64.BroadcastsInDim S131072x64x1 (![0, 1] : Fin 2 → Fin S131072x64x1.rank)
  concatenates_S131072x64x1_S131072x64x1_S131072x64x2_d2 : Shape.Concatenates [S131072x64x1, S131072x64x1] S131072x64x2 2
  shapeCasts_S131072x64x2_S131072x128 : S131072x64x2.ShapeCasts S131072x128
  slices_S131072x255_S131072x128_0_127 : S131072x255.Slices ![0, 127] S131072x128
  bcast_S_S131072x128 : S_.BroadcastsInDim S131072x128 (![] : Fin 0 → Fin S131072x128.rank)
  bcast_S131072x128_S131072x128x1_0_1 : S131072x128.BroadcastsInDim S131072x128x1 (![0, 1] : Fin 2 → Fin S131072x128x1.rank)
  concatenates_S131072x128x1_S131072x128x1_S131072x128x2_d2 : Shape.Concatenates [S131072x128x1, S131072x128x1] S131072x128x2 2
  shapeCasts_S131072x128x2_S131072x256 : S131072x128x2.ShapeCasts S131072x256
  reducesTo_S256x32_S256_d1 : S256x32.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x32_0_1 : S256x1.BroadcastsInDim S256x32 (![0, 1] : Fin 2 → Fin S256x32.rank)
  dot_S131072x256_S256x255_S131072x255_1_0_0_1_n_n_wf : DotDims.WF S131072x256 S256x255 S131072x255 [1] [0] [0] [1] [] []
  dot_S131072x256_S256x32_S131072x32_1_0_0_1_n_n_wf : DotDims.WF S131072x256 S256x32 S131072x32 [1] [0] [0] [1] [] []

variable [Facts₀]

def dot_S131072x256_S256x255_S131072x255_1_0_0_1_n_n : DotDims S131072x256 S256x255 S131072x255 where
  lhsContracting := [1]
  rhsContracting := [0]
  lhsNonContracting := [0]
  rhsNonContracting := [1]
  lhsBatch := []
  rhsBatch := []
  wf := dot_S131072x256_S256x255_S131072x255_1_0_0_1_n_n_wf
def dot_S131072x256_S256x32_S131072x32_1_0_0_1_n_n : DotDims S131072x256 S256x32 S131072x32 where
  lhsContracting := [1]
  rhsContracting := [0]
  lhsNonContracting := [0]
  rhsNonContracting := [1]
  lhsBatch := []
  rhsBatch := []
  wf := dot_S131072x256_S256x32_S131072x32_1_0_0_1_n_n_wf

class Facts : Prop extends Facts₀ where

variable [Facts]
-- ==== Proof.RefTerms.lean ====
/-
  The reference's two results as named functions of its arguments.

  The reference computes, for every row of \`x\`, the branching probabilities \`σ(β_n (x · w_n + b_n))\` of the 255 inner
  nodes of a depth-8 binary tree, pushes the unit mass down the tree level by level to the 256 leaves (\`pathRef\`:
  the leaves' path probabilities, one row per row of \`x\`), and mixes the leaves' softmax distributions (\`leafRef\`)
  by them (\`outRef\`). The three terms below are the reference run's result terms with the arguments' valuation made
  a variable, so that the kernel's side can be stated against the same terms.
-/
import proofs.«157625_j84456236908591_1_alg».proof.Proof.RefRun
import Idealize.ShloMosaic.PureOps.Ideal

noncomputable section

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo

/-- The 256 leaves' path probabilities, row by row: the last level step applied to level 7 (\`res_main_v77\`) and the
    last 128 branching probabilities (\`res_main_v78\`). -/
def pathRef (V0 : Valuation τ sig (Elt Ideal)) : FVec Ideal S131072x256 .f32 :=
  shapeCast S131072x256 (concatenate S131072x128x2 2 [⟨S131072x128x1, (broadcastInDim S131072x128x1 ![0, 1] bcast_S131072x128_S131072x128x1_0_1 (mulf (res_main_v77 V0) (res_main_v78 V0)))⟩, ⟨S131072x128x1, (broadcastInDim S131072x128x1 ![0, 1] bcast_S131072x128_S131072x128x1_0_1 (mulf (res_main_v77 V0) (subf (broadcastInDim S131072x128 ![] bcast_S_S131072x128 (constant S_ .f32 0x3F800000#32)) (res_main_v78 V0))))⟩] concatenates_S131072x128x1_S131072x128x1_S131072x128x2_d2) shapeCasts_S131072x128x2_S131072x256

/-- The leaves' distributions: the row-wise softmax of the leaf parameters. -/
def leafRef (V0 : Valuation τ sig (Elt Ideal)) : FVec Ideal S256x32 .f32 :=
  (Host.divf (res_main_v93 V0) (broadcastInDim S256x32 ![0, 1] bcast_S256x1_S256x32_0_1 (broadcastInDim S256x1 ![0] bcast_S256_S256x1_0 (Host.reduceAdd (res_main_v93 V0) (constant S_ .f32 0x00000000#32) reducesTo_S256x32_S256_d1 h_S_))))

/-- The mixture: each row's path probabilities times the leaves' distributions. -/
def outRef (V0 : Valuation τ sig (Elt Ideal)) : FVec Ideal S131072x32 .f32 :=
  Host.dotGeneral dot_S131072x256_S256x32_S131072x32_1_0_0_1_n_n none (pathRef V0) (leafRef V0)

/-- The generated run with its two result terms named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v98) = outRef (launchContents m c)
      ∧ r.2.mem ((c.tc : Thread nD τ).loc main_v86) = pathRef (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

end Cert.ReferenceIdeal.RefValue

end
-- ==== Proof.HostPrefix.lean ====
/-
  What the kernel's region finds in the arrays its program computes on the host before the launch.

  Before the launch the kernel's program reshapes the two parameter vectors \`b\` and \`β\` to one-row matrices and takes
  the row-wise softmax of the leaf parameters: the same softmax, operation for operation, as the reference's, so it
  is carried here as the reference's term and never opened.
-/
import proofs.«157625_j84456236908591_1_alg».proof.Proof.Gen.KernelIdeal.Frame
import proofs.«157625_j84456236908591_1_alg».proof.Proof.RefTerms
import Idealize.ShloMosaic.Lib.StableHlo.Run

noncomputable section

namespace Cert.KernelIdeal.Hand

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ)

/-- A valuation of the reference's buffers. -/
abbrev RefVal : Type := Valuation Cert.ReferenceIdeal.τ Cert.ReferenceIdeal.sig (Elt Ideal)

/-- The reference's valuation holds, at its five arguments, what core \`c\` of the kernel's program was launched with. -/
structure Agree (c : Dev nD) (V0 : RefVal) : Prop where
  x : V0 (Proc.devRef .tc Cert.ReferenceIdeal.main_arg0) = m ((c : Thread nD τ).loc main_arg0)
  w : V0 (Proc.devRef .tc Cert.ReferenceIdeal.main_arg1) = m ((c : Thread nD τ).loc main_arg1)
  b : V0 (Proc.devRef .tc Cert.ReferenceIdeal.main_arg2) = m ((c : Thread nD τ).loc main_arg2)
  beta : V0 (Proc.devRef .tc Cert.ReferenceIdeal.main_arg3) = m ((c : Thread nD τ).loc main_arg3)
  leaf : V0 (Proc.devRef .tc Cert.ReferenceIdeal.main_arg4) = m ((c : Thread nD τ).loc main_arg4)

/-- The region finds \`b\` as a one-row matrix. -/
theorem V_bRow (c : Dev nD) :
    (V m c main_v0 : S1x255.Idx → Ideal .f32)
      = shapeCast S1x255 (m ((c : Thread nD τ).loc main_arg2) : S255.Idx → Ideal .f32) shapeCasts_S255_S1x255 := by
  dsimp only [V, hostOps0]
  after_results
  rfl

/-- The region finds \`β\` as a one-row matrix. -/
theorem V_betaRow (c : Dev nD) :
    (V m c main_v1 : S1x255.Idx → Ideal .f32)
      = shapeCast S1x255 (m ((c : Thread nD τ).loc main_arg3) : S255.Idx → Ideal .f32) shapeCasts_S255_S1x255 := by
  dsimp only [V, hostOps0]
  after_results
  rfl

/-- The region finds the leaf table at the reference's softmax of the leaf parameters. -/
theorem V_leaf (c : Dev nD) (V0 : RefVal) (hA : Agree m c V0) :
    (V m c main_v12 : S256x32.Idx → Ideal .f32) = Cert.ReferenceIdeal.RefValue.leafRef V0 := by
  unfold Cert.ReferenceIdeal.RefValue.leafRef Cert.ReferenceIdeal.Value.res_main_v93
  rw [hA.leaf]
  dsimp only [V, hostOps0]
  after_results

end Cert.KernelIdeal.Hand

end
-- ==== Proof.LibTreeLevel.lean ====
/-
  A binary tree's level step, read at an index.

  One level of a soft decision tree doubles the number of nodes: from the path probabilities \`P\` of the \`k\` nodes of a
  level and the \`k\` branching probabilities \`PR\` of those nodes it makes the \`2 k\` path probabilities of the next
  level, child \`2 q\` of node \`q\` getting \`P q * PR q\` and child \`2 q + 1\` getting \`P q * (1 - PR q)\`. Both programs
  spell this as "stack the two products on a new last axis and flatten": the two \`[R, k]\` arrays are given a unit last
  axis (\`[R, k, 1]\`; by a shape cast in one program, by a broadcast along the first two axes in the other), concatenated
  along it (\`[R, k, 2]\`) and cast to \`[R, 2 k]\`. Row-major order makes entry \`(i, j)\` of the result the entry
  \`(i, j / 2)\` of the first array when \`j\` is even and of the second when \`j\` is odd.

  Everything here is generic in the extents \`R\`, \`k\` and in the element type; the last section is the agreement of
  the two spellings on a pair of rows, at the extended reals.
-/
import Idealize.ShloMosaic.Lib.Pipeline.Value
import Idealize.ShloMosaic.Lib.ValueIdx
import Idealize.ShloMosaic.PureOps.Ideal

noncomputable section

namespace Idealize.ShloMosaic.TreeLevel

open Idealize.ShloMosaic Idealize.ShloMosaic.ValueIdx

variable {α : Type}

/-- The rank-2 shape \`[R, k]\`. -/
abbrev Sh2 (R k : Nat) : Shape := ⟨2, ![R, k]⟩
/-- The rank-3 shape \`[R, k, c]\`. -/
abbrev Sh3 (R k c : Nat) : Shape := ⟨3, ![R, k, c]⟩

/-- Flattening \`[R, k, 2]\` to \`[R, 2 k]\`: entry \`(i, j)\` is entry \`(i, j / 2, j % 2)\`. -/
theorem shapeCast_pairs_apply (R k k2 : Nat) (hk : k2 = 2 * k) (x : (Sh3 R k 2).Idx → α)
    (h : (Sh3 R k 2).ShapeCasts (Sh2 R k2)) (i : Fin R) (j : Fin k2) :
    shapeCast (Sh2 R k2) x h (ix2 i j)
      = x (ix3 i ⟨j.val / 2, by have := j.isLt; omega⟩ ⟨j.val % 2, Nat.mod_lt _ (by decide)⟩) := by
  refine shapeCast_apply x h _ _ ?_
  rw [Shape.rowMajor_val_three, Shape.rowMajor_val_two]
  show (i.val * k + j.val / 2) * 2 + j.val % 2 = i.val * k2 + j.val
  have e : (i.val * k + j.val / 2) * 2 = i.val * (2 * k) + 2 * (j.val / 2) := by ring
  have := Nat.div_add_mod j.val 2
  have e2 : i.val * k2 = i.val * (2 * k) := by rw [hk]
  rw [e, e2]; omega

/-- Giving \`[R, k]\` a unit last axis by a shape cast: entry \`(i, q, 0)\` is entry \`(i, q)\`. -/
theorem shapeCast_unitLast_apply (R k : Nat) (x : (Sh2 R k).Idx → α) (h : (Sh2 R k).ShapeCasts (Sh3 R k 1))
    (i : Fin R) (q : Fin k) (z : Fin 1) :
    shapeCast (Sh3 R k 1) x h (ix3 i q z) = x (ix2 i q) := by
  refine shapeCast_apply x h _ _ ?_
  rw [Shape.rowMajor_val_three, Shape.rowMajor_val_two]
  show i.val * k + q.val = (i.val * k + q.val) * 1 + z.val
  have := z.isLt; omega

/-- Giving \`[R, k]\` a unit last axis by a broadcast along the first two axes: entry \`(i, q, 0)\` is entry \`(i, q)\`. -/
theorem broadcastInDim_unitLast_apply (R k : Nat) (x : (Sh2 R k).Idx → α)
    (h : (Sh2 R k).BroadcastsInDim (Sh3 R k 1) ![0, 1]) (i : Fin R) (q : Fin k) (z : Fin 1) :
    broadcastInDim (Sh3 R k 1) ![0, 1] h x (ix3 i q z) = x (ix2 i q) := by
  refine broadcastInDim_apply ![0, 1] h x _ _ fun a => ?_
  match a with
  | ⟨0, _⟩ =>
    show i.val = if R = 1 then 0 else i.val
    split_ifs with h1
    · have := i.isLt; omega
    · rfl
  | ⟨1, _⟩ =>
    show q.val = if k = 1 then 0 else q.val
    split_ifs with h1
    · have := q.isLt; omega
    · rfl

/-- Two \`[R, k, 1]\` arrays laid side by side on the last axis: entry \`(i, q, c)\` is the first array's \`(i, q, 0)\` for
    \`c = 0\` and the second's for \`c = 1\`. -/
theorem concatenate_unitLast_apply (R k : Nat) (a b : (Sh3 R k 1).Idx → α)
    (hc : Shape.Concatenates [Sh3 R k 1, Sh3 R k 1] (Sh3 R k 2) 2) (i : Fin R) (q : Fin k) (c : Fin 2) :
    concatenate (Sh3 R k 2) 2 [⟨Sh3 R k 1, a⟩, ⟨Sh3 R k 1, b⟩] hc (ix3 i q c)
      = if c.val = 0 then a (ix3 i q 0) else b (ix3 i q 0) := by
  split_ifs with h0
  · refine concatenate_pair_apply_left (2 : Fin 3) a b hc (ix3 i q c) rfl (ix3 i q 0) fun d => ?_
    match d with
    | ⟨0, _⟩ => rfl
    | ⟨1, _⟩ => rfl
    | ⟨2, _⟩ => exact h0.symm
  · have h1 : c.val = 1 := by have := c.isLt; omega
    refine concatenate_pair_apply_right (2 : Fin 3) a b hc (ix3 i q c) rfl rfl (ix3 i q 0) (fun d hd => ?_) ?_
    · match d with
      | ⟨0, _⟩ => rfl
      | ⟨1, _⟩ => rfl
      | ⟨2, _⟩ => exact absurd rfl hd
    · show (0 : Nat) + 1 = c.val
      omega

/-- THE LEVEL STEP, the pieces given their unit axis by a shape cast: entry \`(i, j)\` of the flattened stack of \`a\` and
    \`b\` is \`a (i, j / 2)\` for even \`j\` and \`b (i, j / 2)\` for odd \`j\`. -/
theorem interleave_cast_apply (R k k2 : Nat) (hk : k2 = 2 * k) (a b : (Sh2 R k).Idx → α)
    (h1 : (Sh2 R k).ShapeCasts (Sh3 R k 1)) (hc : Shape.Concatenates [Sh3 R k 1, Sh3 R k 1] (Sh3 R k 2) 2)
    (h2 : (Sh3 R k 2).ShapeCasts (Sh2 R k2)) (i : Fin R) (j : Fin k2) :
    shapeCast (Sh2 R k2) (concatenate (Sh3 R k 2) 2
        [⟨Sh3 R k 1, shapeCast (Sh3 R k 1) a h1⟩, ⟨Sh3 R k 1, shapeCast (Sh3 R k 1) b h1⟩] hc) h2 (ix2 i j)
      = if j.val % 2 = 0 then a (ix2 i ⟨j.val / 2, by have := j.isLt; omega⟩)
        else b (ix2 i ⟨j.val / 2, by have := j.isLt; omega⟩) := by
  rw [shapeCast_pairs_apply R k k2 hk, concatenate_unitLast_apply R k, shapeCast_unitLast_apply R k,
    shapeCast_unitLast_apply R k]

/-- THE LEVEL STEP, the pieces given their unit axis by a broadcast along the first two axes. -/
theorem interleave_bcast_apply (R k k2 : Nat) (hk : k2 = 2 * k) (a b : (Sh2 R k).Idx → α)
    (h1 : (Sh2 R k).BroadcastsInDim (Sh3 R k 1) ![0, 1])
    (hc : Shape.Concatenates [Sh3 R k 1, Sh3 R k 1] (Sh3 R k 2) 2)
    (h2 : (Sh3 R k 2).ShapeCasts (Sh2 R k2)) (i : Fin R) (j : Fin k2) :
    shapeCast (Sh2 R k2) (concatenate (Sh3 R k 2) 2
        [⟨Sh3 R k 1, broadcastInDim (Sh3 R k 1) ![0, 1] h1 a⟩, ⟨Sh3 R k 1, broadcastInDim (Sh3 R k 1) ![0, 1] h1 b⟩] hc) h2
        (ix2 i j)
      = if j.val % 2 = 0 then a (ix2 i ⟨j.val / 2, by have := j.isLt; omega⟩)
        else b (ix2 i ⟨j.val / 2, by have := j.isLt; omega⟩) := by
  rw [shapeCast_pairs_apply R k k2 hk, concatenate_unitLast_apply R k, broadcastInDim_unitLast_apply R k,
    broadcastInDim_unitLast_apply R k]

/-- A column window \`[off, off + k)\` of an \`[R, n]\` array, read at \`(i, q)\`: the array at \`(i, off + q)\`. -/
theorem sliceCols_apply (R n k off : Nat) (x : (Sh2 R n).Idx → α) (h : (Sh2 R n).Slices ![0, off] (Sh2 R k))
    (hoff : off + k ≤ n) (i : Fin R) (q : Fin k) :
    extractStridedSlice (Sh2 R k) ![0, off] x h (ix2 i q) = x (ix2 i ⟨off + q.val, by have := q.isLt; omega⟩) := by
  refine extractStridedSlice_apply ![0, off] x h _ _ fun a => ?_
  match a with
  | ⟨0, _⟩ => show i.val = 0 + i.val; omega
  | ⟨1, _⟩ => rfl

/-! ## Two programs' level steps on a pair of rows, at the extended reals -/

/-- If row \`i\` of \`P\`, \`PR\`, \`ONE\` is row \`i'\` of \`P'\`, \`PR'\`, \`ONE'\`, then row \`i\` of the next level made the first
    way (shape casts) is row \`i'\` of the next level made the second way (broadcasts): both are
    \`P q * PR q\` at \`2 q\` and \`P q * (ONE q - PR q)\` at \`2 q + 1\`. -/
theorem level_agree (R R' k k2 : Nat) (hk : k2 = 2 * k)
    (P PR ONE : FVec Ideal (Sh2 R k) .f32) (P' PR' ONE' : FVec Ideal (Sh2 R' k) .f32)
    (h1 : (Sh2 R k).ShapeCasts (Sh3 R k 1)) (hc : Shape.Concatenates [Sh3 R k 1, Sh3 R k 1] (Sh3 R k 2) 2)
    (h2 : (Sh3 R k 2).ShapeCasts (Sh2 R k2))
    (h1' : (Sh2 R' k).BroadcastsInDim (Sh3 R' k 1) ![0, 1])
    (hc' : Shape.Concatenates [Sh3 R' k 1, Sh3 R' k 1] (Sh3 R' k 2) 2)
    (h2' : (Sh3 R' k 2).ShapeCasts (Sh2 R' k2))
    (i : Fin R) (i' : Fin R')
    (hP : ∀ q : Fin k, P (ix2 i q) = P' (ix2 i' q)) (hPR : ∀ q : Fin k, PR (ix2 i q) = PR' (ix2 i' q))
    (hONE : ∀ q : Fin k, ONE (ix2 i q) = ONE' (ix2 i' q)) (j : Fin k2) :
    shapeCast (Sh2 R k2) (concatenate (Sh3 R k 2) 2
        [⟨Sh3 R k 1, shapeCast (Sh3 R k 1) (mulf P PR) h1⟩,
         ⟨Sh3 R k 1, shapeCast (Sh3 R k 1) (mulf P (subf ONE PR)) h1⟩] hc) h2 (ix2 i j)
      = shapeCast (Sh2 R' k2) (concatenate (Sh3 R' k 2) 2
        [⟨Sh3 R' k 1, broadcastInDim (Sh3 R' k 1) ![0, 1] h1' (mulf P' PR')⟩,
         ⟨Sh3 R' k 1, broadcastInDim (Sh3 R' k 1) ![0, 1] h1' (mulf P' (subf ONE' PR'))⟩] hc') h2' (ix2 i' j) := by
  rw [interleave_cast_apply R k k2 hk, interleave_bcast_apply R' k k2 hk]
  split_ifs
  · show P _ * PR _ = P' _ * PR' _
    rw [hP, hPR]
  · show P _ * (ONE _ - PR _) = P' _ * (ONE' _ - PR' _)
    rw [hP, hPR, hONE]

/-- Column windows at one offset of two arrays agree on a pair of rows on which the arrays agree. -/
theorem sliceCols_agree (R R' n k off : Nat) (x : (Sh2 R n).Idx → α) (x' : (Sh2 R' n).Idx → α)
    (h : (Sh2 R n).Slices ![0, off] (Sh2 R k)) (h' : (Sh2 R' n).Slices ![0, off] (Sh2 R' k)) (hoff : off + k ≤ n)
    (i : Fin R) (i' : Fin R') (hx : ∀ p : Fin n, x (ix2 i p) = x' (ix2 i' p)) (q : Fin k) :
    extractStridedSlice (Sh2 R k) ![0, off] x h (ix2 i q) = extractStridedSlice (Sh2 R' k) ![0, off] x' h' (ix2 i' q) := by
  rw [sliceCols_apply R n k off x h hoff, sliceCols_apply R' n k off x' h' hoff, hx]

end Idealize.ShloMosaic.TreeLevel

end
-- ==== Proof.Tower.lean ====
/-
  The tree propagation: a row of the kernel's block against the same row of the reference's array.

  Both programs push the unit mass down the depth-8 tree with the same level step (Proof/LibTreeLevel.lean), the kernel
  on a block of 4096 rows, the reference on all 131072 rows, each level reading its branching probabilities from a
  column window of the 255 inner nodes' probabilities (level \`d\` has \`2^d\` nodes, at columns \`2^d - 1 …\`). A row of
  a level depends only on that row of the level before and of the probabilities, so rows that agree at the root and in
  the probabilities agree at every level, the leaves included: eight uses of the level step's agreement, one per
  level, from the leaves back to the root.
-/
import proofs.«157625_j84456236908591_1_alg».proof.Proof.Gen.KernelIdeal.Skeleton
import proofs.«157625_j84456236908591_1_alg».proof.Proof.RefTerms
import proofs.«157625_j84456236908591_1_alg».proof.Proof.LibTreeLevel

noncomputable section

namespace Cert.Proof.Bridge

open Idealize.ShloMosaic Idealize.ShloMosaic.ValueIdx Idealize.SL.Sem

/-- If row \`r\` of the kernel's branching probabilities is row \`r'\` of the reference's, then row \`r\` of the kernel's
    leaf path probabilities is row \`r'\` of the reference's. -/
theorem tower_agree (V0 : Valuation Cert.ReferenceIdeal.τ Cert.ReferenceIdeal.sig (Elt Ideal))
    (v0 : FVec Ideal Cert.KernelIdeal.S4096x256 .f32) (v2 : FVec Ideal Cert.KernelIdeal.S255x256 .f32)
    (v5 v7 : FVec Ideal Cert.KernelIdeal.S1x255 .f32) (r : Fin 4096) (r' : Fin 131072)
    (hprob : ∀ n : Fin 255, Cert.KernelIdeal.Gen.k0_pay1 (F := Ideal) v0 v2 v5 v7 (ix2 r n)
      = Cert.ReferenceIdeal.Value.res_main_v13 V0 (ix2 r' n))
    (j : Fin 256) :
    Cert.KernelIdeal.Gen.k0_pay6 (F := Ideal) (Cert.KernelIdeal.Gen.k0_pay1 v0 v2 v5 v7)
        (Cert.KernelIdeal.Gen.k0_pay2 v0 v2 v5 v7) (Cert.KernelIdeal.Gen.k0_pay3 v0 v2 v5 v7)
        (Cert.KernelIdeal.Gen.k0_pay4 v0 v2 v5 v7) Cert.KernelIdeal.Gen.k0_pay5 (ix2 r j)
      = Cert.ReferenceIdeal.RefValue.pathRef V0 (ix2 r' j) := by
  unfold Cert.KernelIdeal.Gen.k0_pay6 Cert.KernelIdeal.Gen.k0_pay4 Cert.KernelIdeal.Gen.k0_pay5
    Cert.ReferenceIdeal.RefValue.pathRef
  dsimp only
  -- the leaves (level 8) from level 7 and the last 128 inner nodes
  refine TreeLevel.level_agree 4096 131072 128 256 rfl _ _ _ _ _ _ _ _ _ _ _ _ r r' (fun q => ?_) (fun q => ?_) (fun q => ?_) j
  · -- level 7 from level 6 and nodes 63 … 126
    unfold Cert.ReferenceIdeal.Value.res_main_v77
    refine TreeLevel.level_agree 4096 131072 64 128 rfl _ _ _ _ _ _ _ _ _ _ _ _ r r' (fun q => ?_) (fun q => ?_) (fun q => ?_) q
    · -- level 6 from level 5 and nodes 31 … 62
      unfold Cert.ReferenceIdeal.Value.res_main_v68
      refine TreeLevel.level_agree 4096 131072 32 64 rfl _ _ _ _ _ _ _ _ _ _ _ _ r r' (fun q => ?_) (fun q => ?_) (fun q => ?_) q
      · -- level 5 from level 4 and nodes 15 … 30
        unfold Cert.ReferenceIdeal.Value.res_main_v59
        refine TreeLevel.level_agree 4096 131072 16 32 rfl _ _ _ _ _ _ _ _ _ _ _ _ r r' (fun q => ?_) (fun q => ?_) (fun q => ?_) q
        · -- level 4 from level 3 and nodes 7 … 14
          unfold Cert.ReferenceIdeal.Value.res_main_v50
          refine TreeLevel.level_agree 4096 131072 8 16 rfl _ _ _ _ _ _ _ _ _ _ _ _ r r' (fun q => ?_) (fun q => ?_) (fun q => ?_) q
          · -- level 3 from level 2 and nodes 3 … 6
            unfold Cert.KernelIdeal.Gen.k0_pay2 Cert.ReferenceIdeal.Value.res_main_v41
            dsimp only
            refine TreeLevel.level_agree 4096 131072 4 8 rfl _ _ _ _ _ _ _ _ _ _ _ _ r r' (fun q => ?_) (fun q => ?_) (fun q => ?_) q
            · -- level 2 from level 1 and nodes 1, 2
              unfold Cert.ReferenceIdeal.Value.res_main_v32
              refine TreeLevel.level_agree 4096 131072 2 4 rfl _ _ _ _ _ _ _ _ _ _ _ _ r r' (fun q => ?_) (fun q => ?_) (fun q => ?_) q
              · -- level 1 from the root's unit mass and node 0
                unfold Cert.ReferenceIdeal.Value.res_main_v23
                refine TreeLevel.level_agree 4096 131072 1 2 rfl _ _ _ _ _ _ _ _ _ _ _ _ r r' (fun q => ?_) (fun q => ?_) (fun q => ?_) q
                · rfl
                · exact TreeLevel.sliceCols_agree 4096 131072 255 1 0 _ _ _ _ (by decide) r r' hprob q
                · rfl
              · exact TreeLevel.sliceCols_agree 4096 131072 255 2 1 _ _ _ _ (by decide) r r' hprob q
              · rfl
            · exact TreeLevel.sliceCols_agree 4096 131072 255 4 3 _ _ _ _ (by decide) r r' hprob q
            · rfl
          · -- the kernel names this window of the probabilities on its own
            unfold Cert.KernelIdeal.Gen.k0_pay3
            exact TreeLevel.sliceCols_agree 4096 131072 255 8 7 _ _ _ _ (by decide) r r' hprob q
          · rfl
        · exact TreeLevel.sliceCols_agree 4096 131072 255 16 15 _ _ _ _ (by decide) r r' hprob q
        · rfl
      · exact TreeLevel.sliceCols_agree 4096 131072 255 32 31 _ _ _ _ (by decide) r r' hprob q
      · rfl
    · exact TreeLevel.sliceCols_agree 4096 131072 255 64 63 _ _ _ _ (by decide) r r' hprob q
    · rfl
  · exact TreeLevel.sliceCols_agree 4096 131072 255 128 127 _ _ _ _ (by decide) r r' hprob q
  · rfl

end Cert.Proof.Bridge

end
-- ==== Proof.Prob.lean ====
/-
  The branching probabilities: a row of the kernel's block against the same row of the reference's array.

  Both programs compute σ(β_n (Σ_c x_{r,c} w_{n,c} + b_n)). The kernel forms the sum as a product contracted along the
  second axis of both operands, into a zero accumulator, and lays its one-row `b` and `β` along the rows; the reference
  transposes `W` first, takes the plain product, and broadcasts the vectors `b` and `β` to one row and then along the
  rows. Read at an index, both are the same sum over the 256 features and the same two parameters, and the logistic
  function is the quotient 1 / (1 + e^(-·)) on both sides.
-/
import proofs.«157625_j84456236908591_1_alg».proof.Proof.Gen.KernelIdeal.Skeleton
import proofs.«157625_j84456236908591_1_alg».proof.Proof.RefTerms
import Idealize.ShloMosaic.Lib.ValueIdx
import Idealize.ShloMosaic.Lib.Pipeline.Value
import Idealize.ShloMosaic.Lib.KernelVsHost
import Idealize.ShloMosaic.PureOps.Ideal.Laws

noncomputable section

namespace Cert.Proof.Bridge

open Idealize.ShloMosaic Idealize.ShloMosaic.ValueIdx Idealize.SL.Sem

/-! ## Layout reads -/

section Layout
variable {α : Type}

/-- A one-row matrix laid along each of `m` rows by the kernel's broadcast, read at (r, t), is the row at (0, t). -/
theorem broadcastTo_oneRow_apply {m n : Nat} (hb : (⟨2, ![1, n]⟩ : Shape).Broadcasts ⟨2, ![m, n]⟩)
    (y : (⟨2, ![1, n]⟩ : Shape).Idx → α) (r : Fin m) (t : Fin n) :
    broadcastTo ⟨2, ![m, n]⟩ y hb (ix2 r t) = y (ix2 (0 : Fin 1) t) := by
  refine broadcastTo_apply y hb (ix2 r t) (ix2 (0 : Fin 1) t) ?_
  intro a
  match a with
  | ⟨0, _⟩ => rfl
  | ⟨1, _⟩ =>
    show t.val = if n = 1 then 0 else t.val
    split_ifs with hn
    · have := t.isLt; omega
    · rfl

/-- A vector of `n` entries made a one-row matrix by the host's broadcast along axis 1, read at (0, t), is the
    vector at t. -/
theorem broadcastInDim_asRow_apply {n : Nat} (hd : (⟨1, ![n]⟩ : Shape).BroadcastsInDim ⟨2, ![1, n]⟩ ![1])
    (x : (⟨1, ![n]⟩ : Shape).Idx → α) (t : Fin n) :
    broadcastInDim ⟨2, ![1, n]⟩ ![1] hd x (ix2 (0 : Fin 1) t) = x (ix1 t) := by
  refine broadcastInDim_apply ![1] hd x (ix2 (0 : Fin 1) t) (ix1 t) ?_
  intro a
  match a with
  | ⟨0, _⟩ =>
    show t.val = if n = 1 then 0 else t.val
    split_ifs with hn
    · have := t.isLt; omega
    · rfl

/-- The transpose of an `n × k` matrix read at (c, b) is the matrix at (b, c). -/
theorem transpose_swap_apply {n k : Nat} (ht : (⟨2, ![n, k]⟩ : Shape).Transposes [1, 0] ⟨2, ![k, n]⟩)
    (W : (⟨2, ![n, k]⟩ : Shape).Idx → α) (c : Fin k) (b : Fin n) :
    transpose ⟨2, ![k, n]⟩ [1, 0] W ht (ix2 c b) = W (ix2 b c) := by
  refine transpose_apply [1, 0] W ht (ix2 c b) (ix2 b c) ?_
  intro a
  match a with
  | ⟨0, _⟩ => rfl
  | ⟨1, _⟩ => rfl

end Layout

/-! ## The two products as one sum -/

/-- The kernel's product of an `m × k` matrix with an `n × k` one contracted along both second axes (`A Bᵀ`), into a
    zero accumulator, read at (a, b), is the sum over the contracted coordinate of the products of the two rows'
    entries. At the ideal values. -/
theorem matmul_nt_apply {m n k : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have hc := contrEquiv1_symm_val
    (⟨[1], [1], [0], [0], [], [], w⟩ : DotDims ⟨2, ![m, k]⟩ ⟨2, ![n, k]⟩ ⟨2, ![m, n]⟩) k rfl rfl c
  have hl : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    refine Shape.idx_ext₂ ?_ ?_
    · simp [DotDims.lhsIdx]; rfl
    · exact (DotDims.lhsIdx_val_of_single _ (cl := 1) rfl _ _).trans hc
  have hr : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    refine Shape.idx_ext₂ ?_ ?_
    · simp [DotDims.rhsIdx]; rfl
    · exact (DotDims.rhsIdx_val_of_single _ (cr := 1) rfl _ _).trans hc
  rw [hl, hr]

/-- The host's plain product of an `m × k` matrix with a `k × n` one, read at (a, b), is the sum over the contracted
    coordinate of the products of the row's and the column's entries. At the ideal values. -/
theorem dotGeneral_nn_apply {m n k : Nat} {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (a : Fin m) (b : Fin n) :
    FloatOps.dotGeneral (⟨[1], [0], [0], [1], [], [], w⟩ : DotDims _ _ _) prec sched A B (ix2 a b)
      = ∑ c : Fin k, A (ix2 a c) * B (ix2 c b) := by
  rw [Ideal.dotGeneral_apply,
    ← Equiv.sum_comp (contrEquiv1 (⟨[1], [0], [0], [1], [], [], w⟩ : DotDims _ _ _) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    refine Shape.idx_ext₂ ?_ ?_
    · simp [DotDims.lhsIdx]; rfl
    · exact (DotDims.lhsIdx_val_of_single _ (cl := 1) rfl _ _).trans hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    refine Shape.idx_ext₂ ?_ ?_
    · exact (DotDims.rhsIdx_val_of_single _ (cr := 0) rfl _ _).trans hc
    · simp [DotDims.rhsIdx]; rfl
  rw [hl, hr]

/-! ## The branching probabilities -/

/-- The bit pattern of the `f32` constant `1.0` denotes the extended real `1`. -/
theorem ofBits_one_f32 : Ideal.ofBits .f32 0x3F800000#32 = 1 := IdealRules.sign_bit.ideal_onePat .f32

/-- Row `r` of a block's branching probabilities `σ(β_n (x_r · w_n + b_n))`, computed by the kernel from the block's
    row `r` of `x`, the whole `W` and the one-row `b` and `β`, is row `r'` of the reference's, computed from row `r'`
    of its `x`, when the two rows of `x` and the parameters agree. -/
theorem prob_agree (V0 : Valuation Cert.ReferenceIdeal.τ Cert.ReferenceIdeal.sig (Elt Ideal))
    (v0 : FVec Ideal Cert.KernelIdeal.S4096x256 .f32) (v2 : FVec Ideal Cert.KernelIdeal.S255x256 .f32)
    (v5 v7 : FVec Ideal Cert.KernelIdeal.S1x255 .f32) (r : Fin 4096) (r' : Fin 131072)
    (hx : ∀ k : Fin 256, v0 (ix2 r k) = V0 (Proc.devRef .tc Cert.ReferenceIdeal.main_arg0) (ix2 r' k))
    (hW : ∀ (n : Fin 255) (k : Fin 256), v2 (ix2 n k) = V0 (Proc.devRef .tc Cert.ReferenceIdeal.main_arg1) (ix2 n k))
    (hb : ∀ n : Fin 255, v5 (ix2 (0 : Fin 1) n) = V0 (Proc.devRef .tc Cert.ReferenceIdeal.main_arg2) (ix1 n))
    (hbeta : ∀ n : Fin 255, v7 (ix2 (0 : Fin 1) n) = V0 (Proc.devRef .tc Cert.ReferenceIdeal.main_arg3) (ix1 n))
    (n : Fin 255) :
    Cert.KernelIdeal.Gen.k0_pay1 (F := Ideal) v0 v2 v5 v7 (ix2 r n)
      = Cert.ReferenceIdeal.Value.res_main_v13 V0 (ix2 r' n) := by
  -- the kernel's side: σ(β_n (Σ_c x_{r,c} w_{n,c} + b_n)) over the block's values
  have eK : Cert.KernelIdeal.Gen.k0_pay1 (F := Ideal) v0 v2 v5 v7 (ix2 r n)
      = Ideal.logistic (v7 (ix2 (0 : Fin 1) n) * ((∑ c : Fin 256, v0 (ix2 r c) * v2 (ix2 n c)) + v5 (ix2 (0 : Fin 1) n))) := by
    unfold Cert.KernelIdeal.Gen.k0_pay1
    refine congrArg Ideal.logistic ?_
    refine (mulf_apply _ _ _).trans ?_
    refine congrArg₂ (· * ·) ?_ ?_
    · rw [shapeCast_self]
      exact broadcastTo_oneRow_apply _ v7 r n
    · refine (addf_apply _ _ _).trans ?_
      refine congrArg₂ (· + ·) ?_ ?_
      · exact matmul_nt_apply _ none _ _ r n
      · rw [shapeCast_self]
        exact broadcastTo_oneRow_apply _ v5 r n
  -- the reference's side: the same expression, its arrays read through the agreement of the operands
  have eR : Cert.ReferenceIdeal.Value.res_main_v13 V0 (ix2 r' n)
      = Ideal.logistic (v7 (ix2 (0 : Fin 1) n) * ((∑ c : Fin 256, v0 (ix2 r c) * v2 (ix2 n c)) + v5 (ix2 (0 : Fin 1) n))) := by
    unfold Cert.ReferenceIdeal.Value.res_main_v13
    show Ideal.div (Ideal.ofBits .f32 0x3F800000#32)
      (Ideal.ofBits .f32 0x3F800000#32 + Ideal.exp (-(mulf (F := Ideal) (φ := .f32) _ _ (ix2 r' n)))) = _
    rw [ofBits_one_f32]
    refine congrArg Ideal.logistic ?_
    refine (mulf_apply _ _ _).trans ?_
    refine congrArg₂ (· * ·) ?_ ?_
    · refine (broadcastInDim_oneRow_apply _ _ r' n).trans ?_
      exact (broadcastInDim_asRow_apply _ _ n).trans (hbeta n).symm
    · refine (addf_apply _ _ _).trans ?_
      refine congrArg₂ (· + ·) ?_ ?_
      · refine (dotGeneral_nn_apply _ none _ _ _ r' n).trans ?_
        refine Finset.sum_congr rfl fun c _ => ?_
        exact congrArg₂ (· * ·) (hx c).symm ((transpose_swap_apply _ _ c n).trans (hW n c).symm)
      · refine (broadcastInDim_oneRow_apply _ _ r' n).trans ?_
        exact (broadcastInDim_asRow_apply _ _ n).trans (hb n).symm
  exact eK.trans eR.symm

end Cert.Proof.Bridge

end
-- ==== Proof.Out.lean ====
/-
  The mixture: a row of the kernel's second product against the same row of the reference's.
-/
import proofs.«157625_j84456236908591_1_alg».proof.Proof.Gen.KernelIdeal.Skeleton
import proofs.«157625_j84456236908591_1_alg».proof.Proof.RefTerms
import Idealize.ShloMosaic.Lib.ValueIdx
import Idealize.ShloMosaic.Lib.Pipeline.Value
import Idealize.ShloMosaic.Lib.StackMember
import Idealize.ShloMosaic.PureOps.Ideal.Laws

noncomputable section

namespace Cert.Proof.Bridge

open Idealize.ShloMosaic Idealize.ShloMosaic.ValueIdx Idealize.SL.Sem

/-- Over the extended reals a product accumulated into the zero array and the host's product with the same dimension
    numbers agree at every index: each is the plain sum, over the contracted index set, of the products of the two
    operands' entries. -/
theorem matmul_zero_eq_dotGeneral {sl sr so : Shape} {φ₁ φ₂ : FTy} (d : DotDims sl sr so)
    (prec : Option ContractPrecision) (A : FVec Ideal sl φ₁) (B : FVec Ideal sr φ₂) (j : so.Idx) :
    matmul (F := Ideal) d prec A B (constant so .f32 0x00000000#32) j = Host.dotGeneral (F := Ideal) d prec A B j :=
  (Ideal.matmul_constant_zero_apply d prec A B j).trans (Ideal.dotGeneral_apply d prec .single A B j).symm

/-- Rows times columns: an M×K array times a K×N array, accumulated into zero and read at (a, b), is the sum over the
    K shared coordinates c of A[a, c] · B[c, b]. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    matmul (F := Ideal) (DotDims.plain M K N) prec A B (constant ⟨2, ![M, N]⟩ .f32 0x00000000#32) (ix2 a b)
      = ∑ c : Fin K, A (ix2 a c) * B (ix2 c b) :=
  (matmul_zero_eq_dotGeneral (DotDims.plain M K N) prec A B (ix2 a b)).trans
    (StackMember.dotGeneral_plain_apply prec A B a b)

/-- Row `r` of the kernel's mixture `p · Q` (its path probabilities `p` against the loaded leaf table) is row `r'` of the
    reference's, when row `r` of the kernel's path probabilities is row `r'` of the reference's and the loaded table
    is the reference's softmax table. -/
theorem out_agree (V0 : Valuation Cert.ReferenceIdeal.τ Cert.ReferenceIdeal.sig (Elt Ideal))
    (v13 : FVec Ideal Cert.KernelIdeal.S4096x255 .f32) (v41 v42 v43 v44 : FVec Ideal Cert.KernelIdeal.S4096x8 .f32)
    (v88 : FVec Ideal Cert.KernelIdeal.S256x32 .f32) (r : Fin 4096) (r' : Fin 131072)
    (hP : ∀ j : Fin 256, Cert.KernelIdeal.Gen.k0_pay6 (F := Ideal) v13 v41 v42 v43 v44 (ix2 r j)
      = Cert.ReferenceIdeal.RefValue.pathRef V0 (ix2 r' j))
    (hQ : ∀ (l : Fin 256) (o : Fin 32), v88 (ix2 l o) = Cert.ReferenceIdeal.RefValue.leafRef V0 (ix2 l o))
    (o : Fin 32) :
    Cert.KernelIdeal.Gen.k0_pay7 (F := Ideal) v13 v41 v42 v43 v44 v88 (ix2 r o)
      = Cert.ReferenceIdeal.RefValue.outRef V0 (ix2 r' o) := by
  unfold Cert.KernelIdeal.Gen.k0_pay7 Cert.ReferenceIdeal.RefValue.outRef
  -- the two path-probability arrays enter only through the one row each that `hP` relates
  generalize Cert.KernelIdeal.Gen.k0_pay6 (F := Ideal) v13 v41 v42 v43 v44 = p at hP ⊢
  generalize Cert.ReferenceIdeal.RefValue.pathRef V0 = p' at hP ⊢
  -- a cast to the same shape moves nothing
  rw [shapeCast_self]
  -- both products have one contracted axis, the 256 leaves: each side is ∑ l, p[row, l] · Q[l, o]
  refine (matmul_plain_zero_apply none _ _ r o).trans ?_
  refine Eq.trans ?_ (StackMember.dotGeneral_plain_apply none p' _ r' o).symm
  refine Finset.sum_congr rfl fun l _ => ?_
  -- a change of float format is the identity on extended reals
  show p (ix2 r l) * v88 (ix2 l o) = _
  rw [hP l, hQ l o]

end Cert.Proof.Bridge

end
-- ==== Proof.Blocks.lean ====
/-
  From blocks to arrays: the kernel's two result arrays are the reference's.

  The grid has 32 points; point \`t\` reads rows \`4096 t … 4096 t + 4095\` of \`x\` and the whole of \`W\`, of the one-row
  \`b\` and \`β\` and of the leaf table, and writes rows \`4096 t …\` of the two results. Row \`p\` of what point \`t\` writes is
  row \`4096 t + p\` of the reference's result: the branching probabilities agree row by row (Proof/Prob.lean), hence
  the path probabilities (Proof/Tower.lean), hence the mixture (Proof/Out.lean). The 32 blocks tile the arrays, so
  each array ends holding the reference's term.
-/
import proofs.«157625_j84456236908591_1_alg».proof.Proof.Gen.KernelIdeal.Value
import proofs.«157625_j84456236908591_1_alg».proof.Proof.HostPrefix
import proofs.«157625_j84456236908591_1_alg».proof.Proof.Tower
import proofs.«157625_j84456236908591_1_alg».proof.Proof.Prob
import proofs.«157625_j84456236908591_1_alg».proof.Proof.Out
import Idealize.ShloMosaic.Lib.Pipeline.Value
import Idealize.ShloMosaic.Lib.Tactic

noncomputable section

namespace Cert.KernelIdeal.Hand

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row-blocked windows (\`x\` and the two results) are at block \`(t, 0)\` at
    point \`t\`, the others at block \`(0, 0)\`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 32 := Nat.lt_of_lt_of_eq t.isLt N_0

/-- Row \`p\` of point \`t\`'s blocks is row \`4096 t + p\` of the arrays. -/
def row (t : Fin cfg0.N) (p : Fin 4096) : Fin 131072 :=
  ⟨t.val * 4096 + p.val, by have := t_lt t; have := p.isLt; omega⟩

/-! ## The input blocks, literally typed, read at an index -/

abbrev xBlk (c : Dev nD) (t : Fin cfg0.N) : FVec Ideal S4096x256 .f32 := iblk m c 0 t
abbrev wBlk (c : Dev nD) (t : Fin cfg0.N) : FVec Ideal S255x256 .f32 := iblk m c 1 t
abbrev bBlk (c : Dev nD) (t : Fin cfg0.N) : FVec Ideal S1x255 .f32 := iblk m c 2 t
abbrev betaBlk (c : Dev nD) (t : Fin cfg0.N) : FVec Ideal S1x255 .f32 := iblk m c 3 t
abbrev leafBlk (c : Dev nD) (t : Fin cfg0.N) : FVec Ideal S256x32 .f32 := iblk m c 4 t

theorem xBlk_apply (c : Dev nD) (t : Fin cfg0.N) (p : Fin 4096) (k : Fin 256) :
    xBlk m c t (ix2 p k) = (m ((c : Thread nD τ).loc main_arg0) : S131072x256.Idx → Ideal .f32) (ix2 (row t p) k) := by
  obtain ⟨e0, e1, -⟩ := idx_facts t
  unfold xBlk iblk
  rw [View.read_apply]
  show V m c main_arg0 _ = _
  rw [V_main_arg0 m c]
  congr 1
  funext a
  apply Fin.ext
  match a with
  | ⟨0, _⟩ => show win0_0.index t (0 : Fin 2) * 4096 + 1 * p.val = t.val * 4096 + p.val; rw [e0]; omega
  | ⟨1, _⟩ => show win0_0.index t (1 : Fin 2) * 256 + 1 * k.val = k.val; rw [e1]; omega

theorem wBlk_apply (c : Dev nD) (t : Fin cfg0.N) (n : Fin 255) (k : Fin 256) :
    wBlk m c t (ix2 n k) = (m ((c : Thread nD τ).loc main_arg1) : S255x256.Idx → Ideal .f32) (ix2 n k) := by
  obtain ⟨-, -, e0, e1, -⟩ := idx_facts t
  unfold wBlk iblk
  rw [View.read_apply]
  show V m c main_arg1 _ = _
  rw [V_main_arg1 m c]
  congr 1
  funext a
  apply Fin.ext
  match a with
  | ⟨0, _⟩ => show win0_1.index t (0 : Fin 2) * 255 + 1 * n.val = n.val; rw [e0]; omega
  | ⟨1, _⟩ => show win0_1.index t (1 : Fin 2) * 256 + 1 * k.val = k.val; rw [e1]; omega

/-- A vector viewed as a one-row matrix, read at \`(0, n)\`. -/
theorem oneRow_apply (x : S255.Idx → Ideal .f32) (z : Fin 1) (n : Fin 255) :
    shapeCast S1x255 x shapeCasts_S255_S1x255 (ix2 z n) = x (ix1 n) := by
  refine shapeCast_apply x shapeCasts_S255_S1x255 _ _ ?_
  rw [Shape.rowMajor_val_two, Shape.rowMajor_val_one]
  show n.val = z.val * 255 + n.val
  have := z.isLt; omega

theorem bBlk_apply (c : Dev nD) (t : Fin cfg0.N) (n : Fin 255) :
    bBlk m c t (ix2 (0 : Fin 1) n) = (m ((c : Thread nD τ).loc main_arg2) : S255.Idx → Ideal .f32) (ix1 n) := by
  obtain ⟨-, -, -, -, e0, e1, -⟩ := idx_facts t
  unfold bBlk iblk
  rw [View.read_apply]
  show (V m c main_v0 : S1x255.Idx → Ideal .f32) _ = _
  rw [V_bRow m c]
  refine Eq.trans (congrArg _ ?_) (oneRow_apply _ (0 : Fin 1) n)
  funext a
  apply Fin.ext
  match a with
  | ⟨0, _⟩ => show win0_2.index t (0 : Fin 2) * 1 + 1 * 0 = 0; rw [e0]
  | ⟨1, _⟩ => show win0_2.index t (1 : Fin 2) * 255 + 1 * n.val = n.val; rw [e1]; omega

theorem betaBlk_apply (c : Dev nD) (t : Fin cfg0.N) (n : Fin 255) :
    betaBlk m c t (ix2 (0 : Fin 1) n) = (m ((c : Thread nD τ).loc main_arg3) : S255.Idx → Ideal .f32) (ix1 n) := by
  obtain ⟨-, -, -, -, -, -, e0, e1, -⟩ := idx_facts t
  unfold betaBlk iblk
  rw [View.read_apply]
  show (V m c main_v1 : S1x255.Idx → Ideal .f32) _ = _
  rw [V_betaRow m c]
  refine Eq.trans (congrArg _ ?_) (oneRow_apply _ (0 : Fin 1) n)
  funext a
  apply Fin.ext
  match a with
  | ⟨0, _⟩ => show win0_3.index t (0 : Fin 2) * 1 + 1 * 0 = 0; rw [e0]
  | ⟨1, _⟩ => show win0_3.index t (1 : Fin 2) * 255 + 1 * n.val = n.val; rw [e1]; omega

theorem leafBlk_apply (c : Dev nD) (V0 : RefVal) (hA : Agree m c V0) (t : Fin cfg0.N) (l : Fin 256) (o : Fin 32) :
    leafBlk m c t (ix2 l o) = Cert.ReferenceIdeal.RefValue.leafRef V0 (ix2 l o) := by
  obtain ⟨-, -, -, -, -, -, -, -, e0, e1, -⟩ := idx_facts t
  unfold leafBlk iblk
  rw [View.read_apply]
  show (V m c main_v12 : S256x32.Idx → Ideal .f32) _ = _
  rw [V_leaf m c V0 hA]
  congr 1
  funext a
  apply Fin.ext
  match a with
  | ⟨0, _⟩ => show win0_4.index t (0 : Fin 2) * 256 + 1 * l.val = l.val; rw [e0]; omega
  | ⟨1, _⟩ => show win0_4.index t (1 : Fin 2) * 32 + 1 * o.val = o.val; rw [e1]; omega

/-! ## A row of what a point computes is a row of the reference's -/

theorem prob_row (c : Dev nD) (V0 : RefVal) (hA : Agree m c V0) (t : Fin cfg0.N) (p : Fin 4096) (n : Fin 255) :
    k0_pay1 (F := Ideal) (xBlk m c t) (wBlk m c t) (bBlk m c t) (betaBlk m c t) (ix2 p n)
      = Cert.ReferenceIdeal.Value.res_main_v13 V0 (ix2 (row t p) n) :=
  Cert.Proof.Bridge.prob_agree V0 (xBlk m c t) (wBlk m c t) (bBlk m c t) (betaBlk m c t) p (row t p)
    (fun k => by rw [xBlk_apply, hA.x])
    (fun n k => by rw [wBlk_apply, hA.w])
    (fun n => by rw [bBlk_apply, hA.b])
    (fun n => by rw [betaBlk_apply, hA.beta]) n

theorem path_row (c : Dev nD) (V0 : RefVal) (hA : Agree m c V0) (t : Fin cfg0.N) (p : Fin 4096) (q : Fin 256) :
    k0_pay6 (F := Ideal) (k0_pay1 (xBlk m c t) (wBlk m c t) (bBlk m c t) (betaBlk m c t))
        (k0_pay2 (xBlk m c t) (wBlk m c t) (bBlk m c t) (betaBlk m c t))
        (k0_pay3 (xBlk m c t) (wBlk m c t) (bBlk m c t) (betaBlk m c t))
        (k0_pay4 (xBlk m c t) (wBlk m c t) (bBlk m c t) (betaBlk m c t)) k0_pay5 (ix2 p q)
      = Cert.ReferenceIdeal.RefValue.pathRef V0 (ix2 (row t p) q) :=
  Cert.Proof.Bridge.tower_agree V0 (xBlk m c t) (wBlk m c t) (bBlk m c t) (betaBlk m c t) p (row t p)
    (prob_row m c V0 hA t p) q

theorem out_row (c : Dev nD) (V0 : RefVal) (hA : Agree m c V0) (t : Fin cfg0.N) (p : Fin 4096) (o : Fin 32) :
    k0_pay7 (F := Ideal) (k0_pay1 (xBlk m c t) (wBlk m c t) (bBlk m c t) (betaBlk m c t))
        (k0_pay2 (xBlk m c t) (wBlk m c t) (bBlk m c t) (betaBlk m c t))
        (k0_pay3 (xBlk m c t) (wBlk m c t) (bBlk m c t) (betaBlk m c t))
        (k0_pay4 (xBlk m c t) (wBlk m c t) (bBlk m c t) (betaBlk m c t)) k0_pay5 (leafBlk m c t) (ix2 p o)
      = Cert.ReferenceIdeal.RefValue.outRef V0 (ix2 (row t p) o) :=
  Cert.Proof.Bridge.out_agree V0 _ _ _ _ _ (leafBlk m c t) p (row t p) (path_row m c V0 hA t p)
    (leafBlk_apply m c V0 hA t) o

/-! ## What each point writes back, and the arrays after the run -/

/-- Point \`t\` writes back block \`t\` of the reference's path probabilities. -/
theorem flushed6_eq (c : Dev nD) (V0 : RefVal) (hA : Agree m c V0) (t : Fin cfg0.N) :
    (dats m 0 c).flushed 6 t
      = ((cfg0.win 6).blk t).view.read (Elt Ideal) (Cert.ReferenceIdeal.RefValue.pathRef V0) := by
  rw [flushed6]
  unfold out0_6
  rw [View.canon_unit_zero hz]
  simp only [View.ld_unit_zero (S := S4096x256) hz, View.ld_unit_zero (S := S255x256) hz,
    View.ld_unit_zero (S := S1x255) hz]
  obtain ⟨-, -, -, -, -, -, -, -, -, -, -, -, e0, e1⟩ := idx_facts t
  funext y
  obtain ⟨p, q, rfl⟩ : ∃ (p : Fin 4096) (q : Fin 256), y = ix2 p q := ⟨y 0, y 1, eq_ix2 (n0 := 4096) (n1 := 256) y⟩
  rw [View.read_apply]
  refine (path_row m c V0 hA t p q).trans (congrArg _ ?_)
  funext a
  apply Fin.ext
  match a with
  | ⟨0, _⟩ => show t.val * 4096 + p.val = win0_6.index t (0 : Fin 2) * 4096 + 1 * p.val; rw [e0]; omega
  | ⟨1, _⟩ => show q.val = win0_6.index t (1 : Fin 2) * 256 + 1 * q.val; rw [e1]; omega

/-- Point \`t\` writes back block \`t\` of the reference's mixture. -/
theorem flushed5_eq (c : Dev nD) (V0 : RefVal) (hA : Agree m c V0) (t : Fin cfg0.N) :
    (dats m 0 c).flushed 5 t
      = ((cfg0.win 5).blk t).view.read (Elt Ideal) (Cert.ReferenceIdeal.RefValue.outRef V0) := by
  rw [flushed5]
  unfold out0_5
  rw [View.canon_unit_zero hz]
  simp only [View.ld_unit_zero (S := S4096x256) hz, View.ld_unit_zero (S := S255x256) hz,
    View.ld_unit_zero (S := S1x255) hz, View.ld_unit_zero (S := S256x32) hz]
  obtain ⟨-, -, -, -, -, -, -, -, -, -, e0, e1, -⟩ := idx_facts t
  funext y
  obtain ⟨p, o, rfl⟩ : ∃ (p : Fin 4096) (o : Fin 32), y = ix2 p o := ⟨y 0, y 1, eq_ix2 (n0 := 4096) (n1 := 32) y⟩
  rw [View.read_apply]
  refine (out_row m c V0 hA t p o).trans (congrArg _ ?_)
  funext a
  apply Fin.ext
  match a with
  | ⟨0, _⟩ => show t.val * 4096 + p.val = win0_5.index t (0 : Fin 2) * 4096 + 1 * p.val; rw [e0]; omega
  | ⟨1, _⟩ => show o.val = win0_5.index t (1 : Fin 2) * 32 + 1 * o.val; rw [e1]; omega

/-- The point whose block holds row \`i\`. -/
def pointOf (i : Fin 131072) : Fin cfg0.N :=
  ⟨i.val / 4096, by rw [show cfg0.N = 32 from N_0]; have := i.isLt; omega⟩

/-- Every index of the path-probability array is in some point's block. -/
theorem cover6 (i : S131072x256.Idx) :
    ∃ t : Fin cfg0.N, (cfg0.win 6).flush t = true ∧ i ∈ ((cfg0.win 6).blk t).view.set := by
  refine ⟨pointOf (i 0), flush0_6 _, ?_⟩
  obtain ⟨-, -, -, -, -, -, -, -, -, -, -, -, e0, e1⟩ := idx_facts (pointOf (i 0))
  show i ∈ ((View.whole main_v13_1).slice (win0_6.rect (pointOf (i 0)))).set
  rw [View.set_slice_whole, Rect.mem_set_unit]
  intro a
  have h0 : (i 0).val < 131072 := (i 0).isLt
  have h1 : (i 1).val < 256 := (i 1).isLt
  match a with
  | ⟨0, _⟩ =>
    show win0_6.index (pointOf (i 0)) (0 : Fin 2) * 4096 ≤ (i 0).val
      ∧ (i 0).val < win0_6.index (pointOf (i 0)) (0 : Fin 2) * 4096 + 4096
    rw [e0]
    show (i 0).val / 4096 * 4096 ≤ (i 0).val ∧ (i 0).val < (i 0).val / 4096 * 4096 + 4096
    omega
  | ⟨1, _⟩ =>
    show win0_6.index (pointOf (i 0)) (1 : Fin 2) * 256 ≤ (i 1).val
      ∧ (i 1).val < win0_6.index (pointOf (i 0)) (1 : Fin 2) * 256 + 256
    rw [e1]; omega

/-- Every index of the mixture array is in some point's block. -/
theorem cover5 (i : S131072x32.Idx) :
    ∃ t : Fin cfg0.N, (cfg0.win 5).flush t = true ∧ i ∈ ((cfg0.win 5).blk t).view.set := by
  refine ⟨pointOf (i 0), flush0_5 _, ?_⟩
  obtain ⟨-, -, -, -, -, -, -, -, -, -, e0, e1, -⟩ := idx_facts (pointOf (i 0))
  show i ∈ ((View.whole main_v13_0).slice (win0_5.rect (pointOf (i 0)))).set
  rw [View.set_slice_whole, Rect.mem_set_unit]
  intro a
  have h0 : (i 0).val < 131072 := (i 0).isLt
  have h1 : (i 1).val < 32 := (i 1).isLt
  match a with
  | ⟨0, _⟩ =>
    show win0_5.index (pointOf (i 0)) (0 : Fin 2) * 4096 ≤ (i 0).val
      ∧ (i 0).val < win0_5.index (pointOf (i 0)) (0 : Fin 2) * 4096 + 4096
    rw [e0]
    show (i 0).val / 4096 * 4096 ≤ (i 0).val ∧ (i 0).val < (i 0).val / 4096 * 4096 + 4096
    omega
  | ⟨1, _⟩ =>
    show win0_5.index (pointOf (i 0)) (1 : Fin 2) * 32 ≤ (i 1).val
      ∧ (i 1).val < win0_5.index (pointOf (i 0)) (1 : Fin 2) * 32 + 32
    rw [e1]; omega

/-- After the run the path-probability array is the reference's. -/
theorem final6 (c : Dev nD) (V0 : RefVal) (hA : Agree m c V0) :
    (dats m 0 c).arrAt 6 cfg0.N = Cert.ReferenceIdeal.RefValue.pathRef V0 :=
  (dats m 0 c).arrAt_eq_of_cover 6 (Cert.ReferenceIdeal.RefValue.pathRef V0)
    (fun t _ => flushed6_eq m c V0 hA t) cover6

/-- After the run the mixture array is the reference's. -/
theorem final5 (c : Dev nD) (V0 : RefVal) (hA : Agree m c V0) :
    (dats m 0 c).arrAt 5 cfg0.N = Cert.ReferenceIdeal.RefValue.outRef V0 :=
  (dats m 0 c).arrAt_eq_of_cover 5 (Cert.ReferenceIdeal.RefValue.outRef V0)
    (fun t _ => flushed5_eq m c V0 hA t) cover5

/-- The kernel's run, read: its two result arrays at the reference's terms of any valuation that holds the launch
    contents at the arguments; the arguments unchanged. -/
theorem run (V0 : Dev nD → RefVal) (hA : ∀ c, Agree m c (V0 c)) :
    θ_run defs (onTc (τ := τ) (main (F := Ideal))) ⟨m, fun _ => 0, ρ⟩ fun r => ∀ c : Dev nD,
      r.2.mem ((c : Thread nD τ).loc main_v13_0) = Cert.ReferenceIdeal.RefValue.outRef (V0 c)
      ∧ r.2.mem ((c : Thread nD τ).loc main_v13_1) = Cert.ReferenceIdeal.RefValue.pathRef (V0 c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c (V0 c) (hA c)),
      (h c).2.1.trans (final6 m c (V0 c) (hA c)), (h c).2.2⟩)
    (run_blocks m ρ)

end Cert.KernelIdeal.Hand

end
-- ==== Proof.lean ====
/-
  A soft decision tree of depth 8 — for every row of \`x\` the 255 inner nodes' branching probabilities
  \`σ(β_n (x · w_n + b_n))\`, the unit mass pushed down the tree to the 256 leaves, and the leaves' softmax distributions
  mixed by the leaves' path probabilities — computed by one kernel over 32 blocks of 4096 rows, against the same
  computation on the host over all 131072 rows.

  At the extended reals the two programs are the same function of the arguments: a change of float format is the
  identity, a matrix product into a zero accumulator is the host's product (one sum over the contracted axis), the
  kernel's logistic is the host's \`1 / (1 + e^(-z))\`, the level step of the tree is spelled alike up to how a unit
  axis is added, and the softmax of the leaf parameters is computed on the host by both programs with the same
  operations. No law used needs a finite argument, so the precondition is never opened. What differs is the tiling:
  every row of a result depends on that row of \`x\` alone, so block \`t\` of the kernel's results is rows
  \`4096 t … 4096 t + 4095\` of the reference's (Proof/Prob.lean, Proof/Tower.lean, Proof/Out.lean row by row;
  Proof/Blocks.lean from blocks to arrays). The frames are the generated ones; the idealization rewrote nothing.
-/
import proofs.«157625_j84456236908591_1_alg».proof.Defs
import proofs.«157625_j84456236908591_1_alg».proof.Proof.Gen.Kernel
import proofs.«157625_j84456236908591_1_alg».proof.Proof.Gen.Kernel.Skeleton
import proofs.«157625_j84456236908591_1_alg».proof.Proof.Gen.Kernel.Launch
import proofs.«157625_j84456236908591_1_alg».proof.Proof.Gen.Kernel.Points
import proofs.«157625_j84456236908591_1_alg».proof.Proof.Gen.Kernel.Frame
import proofs.«157625_j84456236908591_1_alg».proof.Proof.Gen.KernelIdeal
import proofs.«157625_j84456236908591_1_alg».proof.Proof.Gen.KernelIdeal.Skeleton
import proofs.«157625_j84456236908591_1_alg».proof.Proof.Gen.KernelIdeal.Launch
import proofs.«157625_j84456236908591_1_alg».proof.Proof.Gen.KernelIdeal.Points
import proofs.«157625_j84456236908591_1_alg».proof.Proof.Gen.KernelIdeal.Frame
import proofs.«157625_j84456236908591_1_alg».proof.Proof.Gen.ReferenceIdeal
import proofs.«157625_j84456236908591_1_alg».proof.Proof.Gen.Pre_finite_inputs
import proofs.«157625_j84456236908591_1_alg».proof.Proof.Gen.KernelIdeal.Value
import proofs.«157625_j84456236908591_1_alg».proof.Proof.RefTerms
import proofs.«157625_j84456236908591_1_alg».proof.Proof.Blocks
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.RefValue.run_named m ρ)

/-- Both programs end with the reference's two terms of the reference's launch contents: the reference by its run,
    the kernel by its run read block by block, the reference's launch contents being the kernel's at the arguments. -/
theorem algebraic : Cert.algebraic_KernelIdeal_ReferenceIdeal := by
  intro m ρ m' ρ' _ hagree
  refine ⟨fun c => Cert.ReferenceIdeal.RefValue.outRef (StableHlo.launchContents m' c),
    fun c => Cert.ReferenceIdeal.RefValue.pathRef (StableHlo.launchContents m' c), ?_,
    Cert.ReferenceIdeal.RefValue.run_named m' ρ'⟩
  exact Cert.KernelIdeal.Hand.run m ρ (fun c => StableHlo.launchContents m' c) fun c =>
    ⟨(hagree c).1, (hagree c).2.1, (hagree c).2.2.1, (hagree c).2.2.2.1, (hagree c).2.2.2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
